-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)) →
    ∃ (v0 : (c : Dev Cert.KernelIdeal.nD) → Buf (Elt Ideal) ((c.tc : Thread Cert.KernelIdeal.nD Cert.KernelIdeal.τ).loc Cert.KernelIdeal.main_v26)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v26) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v110) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x3 : Shape := ⟨2, ![100000, 3]⟩
abbrev S2x4000000 : Shape := ⟨2, ![2, 4000000]⟩
abbrev S6x8 : Shape := ⟨2, ![6, 8]⟩
abbrev S8 : Shape := ⟨1, ![8]⟩
abbrev S8x8 : Shape := ⟨2, ![8, 8]⟩
abbrev S8x1 : Shape := ⟨2, ![8, 1]⟩
abbrev S1 : Shape := ⟨1, ![1]⟩
abbrev S_ : Shape := ⟨0, ![]⟩

class Facts : Prop where
  bcast_S_S100000x3 : S_.BroadcastsInDim S100000x3 (![] : Fin 0 → Fin S100000x3.rank)
  reducesTo_S100000x3_S_d0_1 : S100000x3.ReducesTo [0, 1] S_
  h_S_ : 0 < S_.numel
  bcast_S_S6x8 : S_.BroadcastsInDim S6x8 (![] : Fin 0 → Fin S6x8.rank)
  reducesTo_S6x8_S_d0_1 : S6x8.ReducesTo [0, 1] S_
  bcast_S_S8 : S_.BroadcastsInDim S8 (![] : Fin 0 → Fin S8.rank)
  reducesTo_S8_S_d0 : S8.ReducesTo [0] S_
  bcast_S_S8x8 : S_.BroadcastsInDim S8x8 (![] : Fin 0 → Fin S8x8.rank)
  reducesTo_S8x8_S_d0_1 : S8x8.ReducesTo [0, 1] S_
  bcast_S_S8x1 : S_.BroadcastsInDim S8x1 (![] : Fin 0 → Fin S8x1.rank)
  reducesTo_S8x1_S_d0_1 : S8x1.ReducesTo [0, 1] S_
  bcast_S_S1 : S_.BroadcastsInDim S1 (![] : Fin 0 → Fin S1.rank)
  reducesTo_S1_S_d0 : S1.ReducesTo [0] S_

variable [Facts]

def fn_part4 {F : FTy → Type} [FloatOps F] (main_arg15 : FVec F S1 .f32) (main_v63 : IVec S_ 1) (main_v67 : IVec S_ 1) : IVec S_ 1 :=
  let main_v68 : IVec S_ 1 := andi main_v63 main_v67
  let main_v69 : FVec F S1 .f32 := Host.absf main_arg15
  let main_cst_26 : FVec F S_ .f32 := constant S_ .f32 0x7F800000#32
  let main_v70 : FVec F S1 .f32 := broadcastInDim S1 ![] bcast_S_S1 main_cst_26
  let main_v71 : IVec S1 1 := cmpf .olt main_v69 main_v70
  let main_c_27 : IVec S_ 1 := constantI S_ 1 1#1
  let main_v72 : IVec S_ 1 := (fun x v => Host.reduce IntOp.andi x v reducesTo_S1_S_d0 h_S_) main_v71 main_c_27
  let main_v73 : IVec S_ 1 := andi main_v68 main_v72
  main_v73

def fn_part3 {F : FTy → Type} [FloatOps F] (main_arg12 : FVec F S8 .f32) (main_arg13 : FVec F S8 .f32) (main_arg14 : FVec F S8x1 .f32) (main_arg15 : FVec F S1 .f32) (main_v48 : IVec S_ 1) (main_v49 : FVec F S8 .f32) (main_v50 : FVec F S8 .f32) : IVec S_ 1 :=
  let main_v51 : IVec S8 1 := cmpf .olt main_v49 main_v50
  let main_c_19 : IVec S_ 1 := constantI S_ 1 1#1
  let main_v52 : IVec S_ 1 := (fun x v => Host.reduce IntOp.andi x v reducesTo_S8_S_d0 h_S_) main_v51 main_c_19
  let main_v53 : IVec S_ 1 := andi main_v48 main_v52
  let main_v54 : FVec F S8 .f32 := Host.absf main_arg12
  let main_cst_20 : FVec F S_ .f32 := constant S_ .f32 0x7F800000#32
  let main_v55 : FVec F S8 .f32 := broadcastInDim S8 ![] bcast_S_S8 main_cst_20
  let main_v56 : IVec S8 1 := cmpf .olt main_v54 main_v55
  let main_c_21 : IVec S_ 1 := constantI S_ 1 1#1
  let main_v57 : IVec S_ 1 := (fun x v => Host.reduce IntOp.andi x v reducesTo_S8_S_d0 h_S_) main_v56 main_c_21
  let main_v58 : IVec S_ 1 := andi main_v53 main_v57
  let main_v59 : FVec F S8 .f32 := Host.absf main_arg13
  let main_cst_22 : FVec F S_ .f32 := constant S_ .f32 0x7F800000#32
  let main_v60 : FVec F S8 .f32 := broadcastInDim S8 ![] bcast_S_S8 main_cst_22
  let main_v61 : IVec S8 1 := cmpf .olt main_v59 main_v60
  let main_c_23 : IVec S_ 1 := constantI S_ 1 1#1
  let main_v62 : IVec S_ 1 := (fun x v => Host.reduce IntOp.andi x v reducesTo_S8_S_d0 h_S_) main_v61 main_c_23
  let main_v63 : IVec S_ 1 := andi main_v58 main_v62
  let main_v64 : FVec F S8x1 .f32 := Host.absf main_arg14
  let main_cst_24 : FVec F S_ .f32 := constant S_ .f32 0x7F800000#32
  let main_v65 : FVec F S8x1 .f32 := broadcastInDim S8x1 ![] bcast_S_S8x1 main_cst_24
  let main_v66 : IVec S8x1 1 := cmpf .olt main_v64 main_v65
  let main_c_25 : IVec S_ 1 := constantI S_ 1 1#1
  let main_v67 : IVec S_ 1 := (fun x v => Host.reduce IntOp.andi x v reducesTo_S8x1_S_d0_1 h_S_) main_v66 main_c_25
  fn_part4 (F := F) main_arg15 main_v63 main_v67

def fn_part2 {F : FTy → Type} [FloatOps F] (main_arg8 : FVec F S8 .f32) (main_arg9 : FVec F S8 .f32) (main_arg10 : FVec F S8x8 .f32) (main_arg11 : FVec F S8 .f32) (main_arg12 : FVec F S8 .f32) (main_arg13 : FVec F S8 .f32) (main_arg14 : FVec F S8x1 .f32) (main_arg15 : FVec F S1 .f32) (main_v33 : IVec S_ 1) : IVec S_ 1 :=
  let main_v34 : FVec F S8 .f32 := Host.absf main_arg8
  let main_cst_12 : FVec F S_ .f32 := constant S_ .f32 0x7F800000#32
  let main_v35 : FVec F S8 .f32 := broadcastInDim S8 ![] bcast_S_S8 main_cst_12
  let main_v36 : IVec S8 1 := cmpf .olt main_v34 main_v35
  let main_c_13 : IVec S_ 1 := constantI S_ 1 1#1
  let main_v37 : IVec S_ 1 := (fun x v => Host.reduce IntOp.andi x v reducesTo_S8_S_d0 h_S_) main_v36 main_c_13
  let main_v38 : IVec S_ 1 := andi main_v33 main_v37
  let main_v39 : FVec F S8 .f32 := Host.absf main_arg9
  let main_cst_14 : FVec F S_ .f32 := constant S_ .f32 0x7F800000#32
  let main_v40 : FVec F S8 .f32 := broadcastInDim S8 ![] bcast_S_S8 main_cst_14
  let main_v41 : IVec S8 1 := cmpf .olt main_v39 main_v40
  let main_c_15 : IVec S_ 1 := constantI S_ 1 1#1
  let main_v42 : IVec S_ 1 := (fun x v => Host.reduce IntOp.andi x v reducesTo_S8_S_d0 h_S_) main_v41 main_c_15
  let main_v43 : IVec S_ 1 := andi main_v38 main_v42
  let main_v44 : FVec F S8x8 .f32 := Host.absf main_arg10
  let main_cst_16 : FVec F S_ .f32 := constant S_ .f32 0x7F800000#32
  let main_v45 : FVec F S8x8 .f32 := broadcastInDim S8x8 ![] bcast_S_S8x8 main_cst_16
  let main_v46 : IVec S8x8 1 := cmpf .olt main_v44 main_v45
  let main_c_17 : IVec S_ 1 := constantI S_ 1 1#1
  let main_v47 : IVec S_ 1 := (fun x v => Host.reduce IntOp.andi x v reducesTo_S8x8_S_d0_1 h_S_) main_v46 main_c_17
  let main_v48 : IVec S_ 1 := andi main_v43 main_v47
  let main_v49 : FVec F S8 .f32 := Host.absf main_arg11
  let main_cst_18 : FVec F S_ .f32 := constant S_ .f32 0x7F800000#32
  let main_v50 : FVec F S8 .f32 := broadcastInDim S8 ![] bcast_S_S8 main_cst_18
  fn_part3 (F := F) main_arg12 main_arg13 main_arg14 main_arg15 main_v48 main_v49 main_v50

def fn_part1 {F : FTy → Type} [FloatOps F] (main_arg5 : FVec F S8 .f32) (main_arg6 : FVec F S8x8 .f32) (main_arg7 : FVec F S8 .f32) (main_arg8 : FVec F S8 .f32) (main_arg9 : FVec F S8 .f32) (main_arg10 : FVec F S8x8 .f32) (main_arg11 : FVec F S8 .f32) (main_arg12 : FVec F S8 .f32) (main_arg13 : FVec F S8 .f32) (main_arg14 : FVec F S8x1 .f32) (main_arg15 : FVec F S1 .f32) (main_v13 : IVec S_ 1) (main_v16 : IVec S8 1) : IVec S_ 1 :=
  let main_c_5 : IVec S_ 1 := constantI S_ 1 1#1
  let main_v17 : IVec S_ 1 := (fun x v => Host.reduce IntOp.andi x v reducesTo_S8_S_d0 h_S_) main_v16 main_c_5
  let main_v18 : IVec S_ 1 := andi main_v13 main_v17
  let main_v19 : FVec F S8 .f32 := Host.absf main_arg5
  let main_cst_6 : FVec F S_ .f32 := constant S_ .f32 0x7F800000#32
  let main_v20 : FVec F S8 .f32 := broadcastInDim S8 ![] bcast_S_S8 main_cst_6
  let main_v21 : IVec S8 1 := cmpf .olt main_v19 main_v20
  let main_c_7 : IVec S_ 1 := constantI S_ 1 1#1
  let main_v22 : IVec S_ 1 := (fun x v => Host.reduce IntOp.andi x v reducesTo_S8_S_d0 h_S_) main_v21 main_c_7
  let main_v23 : IVec S_ 1 := andi main_v18 main_v22
  let main_v24 : FVec F S8x8 .f32 := Host.absf main_arg6
  let main_cst_8 : FVec F S_ .f32 := constant S_ .f32 0x7F800000#32
  let main_v25 : FVec F S8x8 .f32 := broadcastInDim S8x8 ![] bcast_S_S8x8 main_cst_8
  let main_v26 : IVec S8x8 1 := cmpf .olt main_v24 main_v25
  let main_c_9 : IVec S_ 1 := constantI S_ 1 1#1
  let main_v27 : IVec S_ 1 := (fun x v => Host.reduce IntOp.andi x v reducesTo_S8x8_S_d0_1 h_S_) main_v26 main_c_9
  let main_v28 : IVec S_ 1 := andi main_v23 main_v27
  let main_v29 : FVec F S8 .f32 := Host.absf main_arg7
  let main_cst_10 : FVec F S_ .f32 := constant S_ .f32 0x7F800000#32
  let main_v30 : FVec F S8 .f32 := broadcastInDim S8 ![] bcast_S_S8 main_cst_10
  let main_v31 : IVec S8 1 := cmpf .olt main_v29 main_v30
  let main_c_11 : IVec S_ 1 := constantI S_ 1 1#1
  let main_v32 : IVec S_ 1 := (fun x v => Host.reduce IntOp.andi x v reducesTo_S8_S_d0 h_S_) main_v31 main_c_11
  let main_v33 : IVec S_ 1 := andi main_v28 main_v32
  fn_part2 (F := F) main_arg8 main_arg9 main_arg10 main_arg11 main_arg12 main_arg13 main_arg14 main_arg15 main_v33

def fn {F : FTy → Type} [FloatOps F] (main_arg0 : FVec F S100000x3 .f32) (main_arg1 : IVec S2x4000000 32) (main_arg2 : FVec F S6x8 .f32) (main_arg3 : FVec F S8 .f32) (main_arg4 : FVec F S8 .f32) (main_arg5 : FVec F S8 .f32) (main_arg6 : FVec F S8x8 .f32) (main_arg7 : FVec F S8 .f32) (main_arg8 : FVec F S8 .f32) (main_arg9 : FVec F S8 .f32) (main_arg10 : FVec F S8x8 .f32) (main_arg11 : FVec F S8 .f32) (main_arg12 : FVec F S8 .f32) (main_arg13 : FVec F S8 .f32) (main_arg14 : FVec F S8x1 .f32) (main_arg15 : FVec F S1 .f32) : IVec S_ 1 :=
  let main_v0 : FVec F S100000x3 .f32 := Host.absf main_arg0
  let main_cst : FVec F S_ .f32 := constant S_ .f32 0x7F800000#32
  let main_v1 : FVec F S100000x3 .f32 := broadcastInDim S100000x3 ![] bcast_S_S100000x3 main_cst
  let main_v2 : IVec S100000x3 1 := cmpf .olt main_v0 main_v1
  let main_c : IVec S_ 1 := constantI S_ 1 1#1
  let main_v3 : IVec S_ 1 := (fun x v => Host.reduce IntOp.andi x v reducesTo_S100000x3_S_d0_1 h_S_) main_v2 main_c
  let main_v4 : FVec F S6x8 .f32 := Host.absf main_arg2
  let main_cst_0 : FVec F S_ .f32 := constant S_ .f32 0x7F800000#32
  let main_v5 : FVec F S6x8 .f32 := broadcastInDim S6x8 ![] bcast_S_S6x8 main_cst_0
  let main_v6 : IVec S6x8 1 := cmpf .olt main_v4 main_v5
  let main_c_1 : IVec S_ 1 := constantI S_ 1 1#1
  let main_v7 : IVec S_ 1 := (fun x v => Host.reduce IntOp.andi x v reducesTo_S6x8_S_d0_1 h_S_) main_v6 main_c_1
  let main_v8 : IVec S_ 1 := andi main_v3 main_v7
  let main_v9 : FVec F S8 .f32 := Host.absf main_arg3
  let main_cst_2 : FVec F S_ .f32 := constant S_ .f32 0x7F800000#32
  let main_v10 : FVec F S8 .f32 := broadcastInDim S8 ![] bcast_S_S8 main_cst_2
  let main_v11 : IVec S8 1 := cmpf .olt main_v9 main_v10
  let main_c_3 : IVec S_ 1 := constantI S_ 1 1#1
  let main_v12 : IVec S_ 1 := (fun x v => Host.reduce IntOp.andi x v reducesTo_S8_S_d0 h_S_) main_v11 main_c_3
  let main_v13 : IVec S_ 1 := andi main_v8 main_v12
  let main_v14 : FVec F S8 .f32 := Host.absf main_arg4
  let main_cst_4 : FVec F S_ .f32 := constant S_ .f32 0x7F800000#32
  let main_v15 : FVec F S8 .f32 := broadcastInDim S8 ![] bcast_S_S8 main_cst_4
  let main_v16 : IVec S8 1 := cmpf .olt main_v14 main_v15
  fn_part1 (F := F) main_arg5 main_arg6 main_arg7 main_arg8 main_arg9 main_arg10 main_arg11 main_arg12 main_arg13 main_arg14 main_arg15 main_v13 main_v16
-- ==== Kernel.lean ====
abbrev S100000x3 : Shape := ⟨2, ![100000, 3]⟩
abbrev S2x4000000 : Shape := ⟨2, ![2, 4000000]⟩
abbrev S6x8 : Shape := ⟨2, ![6, 8]⟩
abbrev S8 : Shape := ⟨1, ![8]⟩
abbrev S8x8 : Shape := ⟨2, ![8, 8]⟩
abbrev S8x1 : Shape := ⟨2, ![8, 1]⟩
abbrev S1 : Shape := ⟨1, ![1]⟩
abbrev S1x4000000 : Shape := ⟨2, ![1, 4000000]⟩
abbrev S4000000 : Shape := ⟨1, ![4000000]⟩
abbrev S_ : Shape := ⟨0, ![]⟩
abbrev S4000000x1 : Shape := ⟨2, ![4000000, 1]⟩
abbrev S4000000x3 : Shape := ⟨2, ![4000000, 3]⟩
abbrev S4000000x6 : Shape := ⟨2, ![4000000, 6]⟩
abbrev S4063232x6 : Shape := ⟨2, ![4063232, 6]⟩
abbrev S4063232 : Shape := ⟨1, ![4063232]⟩
abbrev S65536x6 : Shape := ⟨2, ![65536, 6]⟩
abbrev S65536 : Shape := ⟨1, ![65536]⟩
abbrev S65536x8 : Shape := ⟨2, ![65536, 8]⟩
abbrev S1x8 : Shape := ⟨2, ![1, 8]⟩
abbrev S65536x1 : Shape := ⟨2, ![65536, 1]⟩
abbrev S1x1 : Shape := ⟨2, ![1, 1]⟩

abbrev nBuf : Space → Nat
  | .hbm => 49
  | .vmem => 18
  | .smem => 0
  | _ => 0

abbrev bufTy : (tb : Table) → Fin (tcTables nBuf tb) → BufTy
  | .hbm, ⟨0, _⟩ => ⟨S100000x3, .f32⟩
  | .hbm, ⟨1, _⟩ => ⟨S2x4000000, .i32⟩
  | .hbm, ⟨2, _⟩ => ⟨S6x8, .f32⟩
  | .hbm, ⟨3, _⟩ => ⟨S8, .f32⟩
  | .hbm, ⟨4, _⟩ => ⟨S8, .f32⟩
  | .hbm, ⟨5, _⟩ => ⟨S8, .f32⟩
  | .hbm, ⟨6, _⟩ => ⟨S8x8, .f32⟩
  | .hbm, ⟨7, _⟩ => ⟨S8, .f32⟩
  | .hbm, ⟨8, _⟩ => ⟨S8, .f32⟩
  | .hbm, ⟨9, _⟩ => ⟨S8, .f32⟩
  | .hbm, ⟨10, _⟩ => ⟨S8x8, .f32⟩
  | .hbm, ⟨11, _⟩ => ⟨S8, .f32⟩
  | .hbm, ⟨12, _⟩ => ⟨S8, .f32⟩
  | .hbm, ⟨13, _⟩ => ⟨S8, .f32⟩
  | .hbm, ⟨14, _⟩ => ⟨S8x1, .f32⟩
  | .hbm, ⟨15, _⟩ => ⟨S1, .f32⟩
  | .hbm, ⟨16, _⟩ => ⟨S1x4000000, .i32⟩
  | .hbm, ⟨17, _⟩ => ⟨S4000000, .i32⟩
  | .hbm, ⟨18, _⟩ => ⟨S1x4000000, .i32⟩
  | .hbm, ⟨19, _⟩ => ⟨S4000000, .i32⟩
  | .hbm, ⟨20, _⟩ => ⟨S100000x3, .bf16⟩
  | .hbm, ⟨21, _⟩ => ⟨S_, .i32⟩
  | .hbm, ⟨22, _⟩ => ⟨S4000000, .i32⟩
  | .hbm, ⟨23, _⟩ => ⟨S4000000, .i1⟩
  | .hbm, ⟨24, _⟩ => ⟨S_, .i32⟩
  | .hbm, ⟨25, _⟩ => ⟨S4000000, .i32⟩
  | .hbm, ⟨26, _⟩ => ⟨S4000000, .i32⟩
  | .hbm, ⟨27, _⟩ => ⟨S4000000, .i32⟩
  | .hbm, ⟨28, _⟩ => ⟨S4000000x1, .i32⟩
  | .hbm, ⟨29, _⟩ => ⟨S4000000x3, .bf16⟩
  | .hbm, ⟨30, _⟩ => ⟨S_, .i32⟩
  | .hbm, ⟨31, _⟩ => ⟨S4000000, .i32⟩
  | .hbm, ⟨32, _⟩ => ⟨S4000000, .i1⟩
  | .hbm, ⟨33, _⟩ => ⟨S_, .i32⟩
  | .hbm, ⟨34, _⟩ => ⟨S4000000, .i32⟩
  | .hbm, ⟨35, _⟩ => ⟨S4000000, .i32⟩
  | .hbm, ⟨36, _⟩ => ⟨S4000000, .i32⟩
  | .hbm, ⟨37, _⟩ => ⟨S4000000x1, .i32⟩
  | .hbm, ⟨38, _⟩ => ⟨S4000000x3, .bf16⟩
  | .hbm, ⟨39, _⟩ => ⟨S4000000x6, .bf16⟩
  | .hbm, ⟨40, _⟩ => ⟨S_, .i32⟩
  | .hbm, ⟨41, _⟩ => ⟨S_, .bf16⟩
  | .hbm, ⟨42, _⟩ => ⟨S4063232x6, .bf16⟩
  | .hbm, ⟨43, _⟩ => ⟨S6x8, .bf16⟩
  | .hbm, ⟨44, _⟩ => ⟨S8x8, .bf16⟩
  | .hbm, ⟨45, _⟩ => ⟨S8x8, .bf16⟩
  | .hbm, ⟨46, _⟩ => ⟨S8x1, .bf16⟩
  | .hbm, ⟨47, _⟩ => ⟨S4063232, .f32⟩
  | .hbm, ⟨48, _⟩ => ⟨S4000000, .f32⟩
  | .local _ .vmem, ⟨0, _⟩ => ⟨S65536x6, .bf16⟩
  | .local _ .vmem, ⟨1, _⟩ => ⟨S65536x6, .bf16⟩
  | .local _ .vmem, ⟨2, _⟩ => ⟨S6x8, .bf16⟩
  | .local _ .vmem, ⟨3, _⟩ => ⟨S8, .f32⟩
  | .local _ .vmem, ⟨4, _⟩ => ⟨S8, .f32⟩
  | .local _ .vmem, ⟨5, _⟩ => ⟨S8, .f32⟩
  | .local _ .vmem, ⟨6, _⟩ => ⟨S8x8, .bf16⟩
  | .local _ .vmem, ⟨7, _⟩ => ⟨S8, .f32⟩
  | .local _ .vmem, ⟨8, _⟩ => ⟨S8, .f32⟩
  | .local _ .vmem, ⟨9, _⟩ => ⟨S8, .f32⟩
  | .local _ .vmem, ⟨10, _⟩ => ⟨S8x8, .bf16⟩
  | .local _ .vmem, ⟨11, _⟩ => ⟨S8, .f32⟩
  | .local _ .vmem, ⟨12, _⟩ => ⟨S8, .f32⟩
  | .local _ .vmem, ⟨13, _⟩ => ⟨S8, .f32⟩
  | .local _ .vmem, ⟨14, _⟩ => ⟨S8x1, .bf16⟩
  | .local _ .vmem, ⟨15, _⟩ => ⟨S1, .f32⟩
  | .local _ .vmem, ⟨16, _⟩ => ⟨S65536, .f32⟩
  | .local _ .vmem, ⟨17, _⟩ => ⟨S65536, .f32⟩
  | _, _ => ⟨S100000x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_c : Ref sig .tc := ⟨.hbm, 21, rfl⟩
abbrev main_v5 : Ref sig .tc := ⟨.hbm, 22, rfl⟩
abbrev main_v6 : Ref sig .tc := ⟨.hbm, 23, rfl⟩
abbrev main_c_0 : Ref sig .tc := ⟨.hbm, 24, rfl⟩
abbrev main_v7 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_c_1 : Ref sig .tc := ⟨.hbm, 30, rfl⟩
abbrev main_v12 : Ref sig .tc := ⟨.hbm, 31, rfl⟩
abbrev main_v13 : Ref sig .tc := ⟨.hbm, 32, rfl⟩
abbrev main_c_2 : Ref sig .tc := ⟨.hbm, 33, rfl⟩
abbrev main_v14 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_c_3 : Ref sig .tc := ⟨.hbm, 40, rfl⟩
abbrev main_call0_v0 : Ref sig .tc := ⟨.hbm, 41, rfl⟩
abbrev main_v20 : Ref sig .tc := ⟨.hbm, 42, rfl⟩
abbrev main_v21 : Ref sig .tc := ⟨.hbm, 43, rfl⟩
abbrev main_v22 : Ref sig .tc := ⟨.hbm, 44, rfl⟩
abbrev main_v23 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg10_0 : Ref sig .tc := ⟨.vmem, 11, rfl⟩
abbrev cc0_stg11_0 : Ref sig .tc := ⟨.vmem, 12, rfl⟩
abbrev cc0_stg12_0 : Ref sig .tc := ⟨.vmem, 13, rfl⟩
abbrev cc0_stg13_0 : Ref sig .tc := ⟨.vmem, 14, rfl⟩
abbrev cc0_stg14_0 : Ref sig .tc := ⟨.vmem, 15, rfl⟩
abbrev cc0_stg15_0 : Ref sig .tc := ⟨.vmem, 16, rfl⟩
abbrev cc0_stg15_1 : Ref sig .tc := ⟨.vmem, 17, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem11_0 : DmaSem sig := 12
abbrev cc0_sem12_0 : DmaSem sig := 13
abbrev cc0_sem13_0 : DmaSem sig := 14
abbrev cc0_sem14_0 : DmaSem sig := 15
abbrev cc0_sem15_0 : DmaSem sig := 16
abbrev cc0_sem15_1 : DmaSem sig := 17

abbrev nD : Nat := 1
abbrev τ : Topo := Topo.v7x

variable {F : FTy → Type} [FloatOps F]

abbrev grid0 : Pipeline.Grid := ⟨1, ![62], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_7 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_8 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_11 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_12 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_15 (i : grid0.Coords) : Fin 1 → Nat :=
  let arg0 : BitVec 32 := BitVec.ofNat 32 (i 0).val
  let c0_i32 : BitVec 32 := 0#32
  ![arg0.toNat]

abbrev stage0_0 : Fin 2 → Memref sig .tc .vmem S65536x6 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S6x8 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S8 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S8 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S8 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S8x8 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S8 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S8 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S8 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S8x8 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S8 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S8 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S8 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S8x1 .bf16 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S1 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 2 → Memref sig .tc .vmem S65536 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

class Facts₀ : Prop where
  slices_S2x4000000_S1x4000000_0_0 : S2x4000000.Slices ![0, 0] S1x4000000
  shapeCasts_S1x4000000_S4000000 : S1x4000000.ShapeCasts S4000000
  slices_S2x4000000_S1x4000000_1_0 : S2x4000000.Slices ![1, 0] S1x4000000
  bitsLt_bf16_f32 : FTy.bits .bf16 < FTy.bits .f32
  bcast_S_S4000000 : S_.BroadcastsInDim S4000000 (![] : Fin 0 → Fin S4000000.rank)
  bcast_S4000000_S4000000x1_0 : S4000000.BroadcastsInDim S4000000x1 (![0] : Fin 1 → Fin S4000000x1.rank)
  concatenates_S4000000x3_S4000000x3_S4000000x6_d1 : Shape.Concatenates [S4000000x3, S4000000x3] S4000000x6 1
  pads_S4000000x6_S4063232x6_0632320_000 : S4000000x6.Pads (![0, 0] : Fin 2 → Nat) ![63232, 0] ![0, 0] S4063232x6
  h_S_ : 0 < S_.numel
  inb_S65536x6_S65536x6_0_0 : ∀ a, (![0, 0] : Fin 2 → Nat) a + S65536x6.size a ≤ S65536x6.size a
  h_S65536x6 : 0 < S65536x6.numel
  shapeCasts_S65536x6_S65536x6 : S65536x6.ShapeCasts S65536x6
  inb_S6x8_S6x8_0_0 : ∀ a, (![0, 0] : Fin 2 → Nat) a + S6x8.size a ≤ S6x8.size a
  h_S6x8 : 0 < S6x8.numel
  shapeCasts_S6x8_S6x8 : S6x8.ShapeCasts S6x8
  inb_S8_S8_0 : ∀ a, (![0] : Fin 1 → Nat) a + S8.size a ≤ S8.size a
  h_S8 : 0 < S8.numel
  shapeCasts_S8_S1x8 : S8.ShapeCasts S1x8
  broadcasts_S1x8_S65536x8 : S1x8.Broadcasts S65536x8
  reduces_S65536x8_S65536 : S65536x8.Reduces [1] S65536
  shapeCasts_S65536_S65536x1 : S65536.ShapeCasts S65536x1
  broadcasts_S65536x1_S65536x8 : S65536x1.Broadcasts S65536x8
  inb_S8x8_S8x8_0_0 : ∀ a, (![0, 0] : Fin 2 → Nat) a + S8x8.size a ≤ S8x8.size a
  h_S8x8 : 0 < S8x8.numel
  shapeCasts_S8x8_S8x8 : S8x8.ShapeCasts S8x8
  inb_S8x1_S8x1_0_0 : ∀ a, (![0, 0] : Fin 2 → Nat) a + S8x1.size a ≤ S8x1.size a
  h_S8x1 : 0 < S8x1.numel
  shapeCasts_S8x1_S8x1 : S8x1.ShapeCasts S8x1
  inb_S1_S1_0 : ∀ a, (![0] : Fin 1 → Nat) a + S1.size a ≤ S1.size a
  h_S1 : 0 < S1.numel
  shapeCasts_S1_S1x1 : S1.ShapeCasts S1x1
  broadcasts_S1x1_S65536x1 : S1x1.Broadcasts S65536x1
  shapeCasts_S65536x1_S65536 : S65536x1.ShapeCasts S65536
  inb_S65536_S65536_0 : ∀ a, (![0] : Fin 1 → Nat) a + S65536.size a ≤ S65536.size a
  h_S65536 : 0 < S65536.numel
  slices_S4063232_S4000000_0 : S4063232.Slices ![0] S4000000
  gather_S100000x3_S4000000x1_S4000000x3_1_0_n_n_0_1_13_wf : GatherDims.WF S100000x3 S4000000x1 S4000000x3 [1] [0] [] [0] [] 1 ![1, 3]
  dot_S65536x6_S6x8_S65536x8_1_0_0_1_n_n_wf : DotDims.WF S65536x6 S6x8 S65536x8 [1] [0] [0] [1] [] []
  dot_S65536x8_S8x8_S65536x8_1_0_0_1_n_n_wf : DotDims.WF S65536x8 S8x8 S65536x8 [1] [0] [0] [1] [] []
  dot_S65536x8_S8x1_S65536x1_1_0_0_1_n_n_wf : DotDims.WF S65536x8 S8x1 S65536x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S65536x6.size a ≤ S4063232x6.size a
  hwx0_0 : ∀ i : grid0.Coords, EltTy.bits .bf16 = 32 ∨ (Rect.block (s := S4063232x6) S65536x6.size (cc0_transform_0 i) (hinb0_0 i)).WholeWords (EltTy.packing .bf16)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S6x8.size a ≤ S6x8.size a
  hwx0_1 : ∀ i : grid0.Coords, EltTy.bits .bf16 = 32 ∨ (Rect.block (s := S6x8) S6x8.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S8.size a ≤ S8.size a
  hwx0_2 : ∀ i : grid0.Coords, EltTy.bits .f32 = 32 ∨ (Rect.block (s := S8) S8.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S8.size a ≤ S8.size a
  hwx0_3 : ∀ i : grid0.Coords, EltTy.bits .f32 = 32 ∨ (Rect.block (s := S8) S8.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S8.size a ≤ S8.size a
  hwx0_4 : ∀ i : grid0.Coords, EltTy.bits .f32 = 32 ∨ (Rect.block (s := S8) S8.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S8x8.size a ≤ S8x8.size a
  hwx0_5 : ∀ i : grid0.Coords, EltTy.bits .bf16 = 32 ∨ (Rect.block (s := S8x8) S8x8.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S8.size a ≤ S8.size a
  hwx0_6 : ∀ i : grid0.Coords, EltTy.bits .f32 = 32 ∨ (Rect.block (s := S8) S8.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S8.size a ≤ S8.size a
  hwx0_7 : ∀ i : grid0.Coords, EltTy.bits .f32 = 32 ∨ (Rect.block (s := S8) S8.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S8.size a ≤ S8.size a
  hwx0_8 : ∀ i : grid0.Coords, EltTy.bits .f32 = 32 ∨ (Rect.block (s := S8) S8.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S8x8.size a ≤ S8x8.size a
  hwx0_9 : ∀ i : grid0.Coords, EltTy.bits .bf16 = 32 ∨ (Rect.block (s := S8x8) S8x8.size (cc0_transform_9 i) (hinb0_9 i)).WholeWords (EltTy.packing .bf16)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S8.size a ≤ S8.size a
  hwx0_10 : ∀ i : grid0.Coords, EltTy.bits .f32 = 32 ∨ (Rect.block (s := S8) S8.size (cc0_transform_10 i) (hinb0_10 i)).WholeWords (EltTy.packing .f32)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S8.size a ≤ S8.size a
  hwx0_11 : ∀ i : grid0.Coords, EltTy.bits .f32 = 32 ∨ (Rect.block (s := S8) S8.size (cc0_transform_11 i) (hinb0_11 i)).WholeWords (EltTy.packing .f32)
  hstage0_12 : ∀ j, (stage0_12 j).IsWhole
  nbuf0_12 : grid0.bufCount reads0_12 true = 1
  hreads0_12 : ∀ i i' : grid0.Coords, (∀ a, reads0_12 a = true → i a = i' a) → cc0_transform_12 i = cc0_transform_12 i'
  hinb0_12 : ∀ (i : grid0.Coords) a, (cc0_transform_12 i a + 1) * S8.size a ≤ S8.size a
  hwx0_12 : ∀ i : grid0.Coords, EltTy.bits .f32 = 32 ∨ (Rect.block (s := S8) S8.size (cc0_transform_12 i) (hinb0_12 i)).WholeWords (EltTy.packing .f32)
  hstage0_13 : ∀ j, (stage0_13 j).IsWhole
  nbuf0_13 : grid0.bufCount reads0_13 true = 1
  hreads0_13 : ∀ i i' : grid0.Coords, (∀ a, reads0_13 a = true → i a = i' a) → cc0_transform_13 i = cc0_transform_13 i'
  hinb0_13 : ∀ (i : grid0.Coords) a, (cc0_transform_13 i a + 1) * S8x1.size a ≤ S8x1.size a
  hwx0_13 : ∀ i : grid0.Coords, EltTy.bits .bf16 = 32 ∨ (Rect.block (s := S8x1) S8x1.size (cc0_transform_13 i) (hinb0_13 i)).WholeWords (EltTy.packing .bf16)
  hstage0_14 : ∀ j, (stage0_14 j).IsWhole
  nbuf0_14 : grid0.bufCount reads0_14 true = 1
  hreads0_14 : ∀ i i' : grid0.Coords, (∀ a, reads0_14 a = true → i a = i' a) → cc0_transform_14 i = cc0_transform_14 i'
  hinb0_14 : ∀ (i : grid0.Coords) a, (cc0_transform_14 i a + 1) * S1.size a ≤ S1.size a
  hwx0_14 : ∀ i : grid0.Coords, EltTy.bits .f32 = 32 ∨ (Rect.block (s := S1) S1.size (cc0_transform_14 i) (hinb0_14 i)).WholeWords (EltTy.packing .f32)
  hstage0_15 : ∀ j, (stage0_15 j).IsWhole
  nbuf0_15 : grid0.bufCount reads0_15 false = 2
  hreads0_15 : ∀ i i' : grid0.Coords, (∀ a, reads0_15 a = true → i a = i' a) → cc0_transform_15 i = cc0_transform_15 i'
  hinb0_15 : ∀ (i : grid0.Coords) a, (cc0_transform_15 i a + 1) * S65536.size a ≤ S4063232.size a
  hwx0_15 : ∀ i : grid0.Coords, EltTy.bits .f32 = 32 ∨ (Rect.block (s := S4063232) S65536.size (cc0_transform_15 i) (hinb0_15 i)).WholeWords (EltTy.packing .f32)

variable [Facts₀]

def gather_S100000x3_S4000000x1_S4000000x3_1_0_n_n_0_1_13 : GatherDims S100000x3 S4000000x1 S4000000x3 where
  offsetDims := [1]
  collapsedSliceDims := [0]
  operandBatchingDims := []
  startIndicesBatchingDims := []
  startIndexMap := [0]
  indexVectorDim := 1
  sliceSizes := ![1, 3]
  wf := gather_S100000x3_S4000000x1_S4000000x3_1_0_n_n_0_1_13_wf
def dot_S65536x6_S6x8_S65536x8_1_0_0_1_n_n : DotDims S65536x6 S6x8 S65536x8 where
  lhsContracting := [1]
  rhsContracting := [0]
  lhsNonContracting := [0]
  rhsNonContracting := [1]
  lhsBatch := []
  rhsBatch := []
  wf := dot_S65536x6_S6x8_S65536x8_1_0_0_1_n_n_wf
def dot_S65536x8_S8x8_S65536x8_1_0_0_1_n_n : DotDims S65536x8 S8x8 S65536x8 where
  lhsContracting := [1]
  rhsContracting := [0]
  lhsNonContracting := [0]
  rhsNonContracting := [1]
  lhsBatch := []
  rhsBatch := []
  wf := dot_S65536x8_S8x8_S65536x8_1_0_0_1_n_n_wf
def dot_S65536x8_S8x1_S65536x1_1_0_0_1_n_n : DotDims S65536x8 S8x1 S65536x1 where
  lhsContracting := [1]
  rhsContracting := [0]
  lhsNonContracting := [0]
  rhsNonContracting := [1]
  lhsBatch := []
  rhsBatch := []
  wf := dot_S65536x8_S8x1_S65536x1_1_0_0_1_n_n_wf

abbrev win0_0 : Pipeline.Window sig grid0 :=
  Pipeline.Window.ofSpec (Memref.whole main_v20) S65536x6.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v21) S6x8.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S8.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg4) S8.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg5) S8.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v22) S8x8.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg7) S8.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg8) S8.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_arg9) S8.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v23) S8x8.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_arg11) S8.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_arg12) S8.size cc0_transform_11 reads0_11 false true 1 stage0_11 sem0_11
    hrank0 hreads0_11 hinb0_11 nbuf0_11 (Memref.isWhole_whole _) hwx0_11 hstage0_11

abbrev win0_12 : Pipeline.Window sig grid0 :=
  Pipeline.Window.ofSpec (Memref.whole main_arg13) S8.size cc0_transform_12 reads0_12 false true 1 stage0_12 sem0_12
    hrank0 hreads0_12 hinb0_12 nbuf0_12 (Memref.isWhole_whole _) hwx0_12 hstage0_12

abbrev win0_13 : Pipeline.Window sig grid0 :=
  Pipeline.Window.ofSpec (Memref.whole main_v24) S8x1.size cc0_transform_13 reads0_13 false true 1 stage0_13 sem0_13
    hrank0 hreads0_13 hinb0_13 nbuf0_13 (Memref.isWhole_whole _) hwx0_13 hstage0_13

abbrev win0_14 : Pipeline.Window sig grid0 :=
  Pipeline.Window.ofSpec (Memref.whole main_arg15) S1.size cc0_transform_14 reads0_14 false true 1 stage0_14 sem0_14
    hrank0 hreads0_14 hinb0_14 nbuf0_14 (Memref.isWhole_whole _) hwx0_14 hstage0_14

abbrev win0_15 : Pipeline.Window sig grid0 :=
  Pipeline.Window.ofSpec (Memref.whole main_v25) S65536.size cc0_transform_15 reads0_15 true false 2 stage0_15 sem0_15
    hrank0 hreads0_15 hinb0_15 nbuf0_15 (Memref.isWhole_whole _) hwx0_15 hstage0_15

abbrev win0 : Fin 16 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | 14 => win0_14 | 15 => win0_15 | ⟨_ + 16, h⟩ => absurd h (Nat.not_lt.2 (Nat.le_add_left _ _))
abbrev spec0 : Fin 16 → Pipeline.WinSpec sig grid0.rank := fun w => (win0 w).toWinSpec

class Facts : Prop extends Facts₀ where

variable [Facts]
-- ==== ReferenceIdeal.lean ====
abbrev S100000x3 : Shape := ⟨2, ![100000, 3]⟩
abbrev S2x4000000 : Shape := ⟨2, ![2, 4000000]⟩
abbrev S6x8 : Shape := ⟨2, ![6, 8]⟩
abbrev S8 : Shape := ⟨1, ![8]⟩
abbrev S8x8 : Shape := ⟨2, ![8, 8]⟩
abbrev S8x1 : Shape := ⟨2, ![8, 1]⟩
abbrev S1 : Shape := ⟨1, ![1]⟩
abbrev S1x4000000 : Shape := ⟨2, ![1, 4000000]⟩
abbrev S4000000 : Shape := ⟨1, ![4000000]⟩
abbrev S_ : Shape := ⟨0, ![]⟩
abbrev S4000000x1 : Shape := ⟨2, ![4000000, 1]⟩
abbrev S4000000x3 : Shape := ⟨2, ![4000000, 3]⟩
abbrev S4000000x6 : Shape := ⟨2, ![4000000, 6]⟩
abbrev S4000000x8 : Shape := ⟨2, ![4000000, 8]⟩
abbrev S1x8 : Shape := ⟨2, ![1, 8]⟩
abbrev S1x1 : Shape := ⟨2, ![1, 1]⟩

abbrev nBuf : Space → Nat
  | .hbm => 146
  | .vmem => 0
  | .smem => 0
  | _ => 0

abbrev hbmTy0_0 (i : Nat) : BufTy := match i % 128 with
  | 0 => ⟨S100000x3, .f32⟩
  | 1 => ⟨S2x4000000, .i32⟩
  | 2 => ⟨S6x8, .f32⟩
  | 3 => ⟨S8, .f32⟩
  | 4 => ⟨S8, .f32⟩
  | 5 => ⟨S8, .f32⟩
  | 6 => ⟨S8x8, .f32⟩
  | 7 => ⟨S8, .f32⟩
  | 8 => ⟨S8, .f32⟩
  | 9 => ⟨S8, .f32⟩
  | 10 => ⟨S8x8, .f32⟩
  | 11 => ⟨S8, .f32⟩
  | 12 => ⟨S8, .f32⟩
  | 13 => ⟨S8, .f32⟩
  | 14 => ⟨S8x1, .f32⟩
  | 15 => ⟨S1, .f32⟩
  | 16 => ⟨S1x4000000, .i32⟩
  | 17 => ⟨S4000000, .i32⟩
  | 18 => ⟨S1x4000000, .i32⟩
  | 19 => ⟨S4000000, .i32⟩
  | 20 => ⟨S_, .i32⟩
  | 21 => ⟨S4000000, .i32⟩
  | 22 => ⟨S4000000, .i1⟩
  | 23 => ⟨S_, .i32⟩
  | 24 => ⟨S4000000, .i32⟩
  | 25 => ⟨S4000000, .i32⟩
  | 26 => ⟨S4000000, .i32⟩
  | 27 => ⟨S4000000x1, .i32⟩
  | 28 => ⟨S4000000x3, .f32⟩
  | 29 => ⟨S_, .i32⟩
  | 30 => ⟨S4000000, .i32⟩
  | 31 => ⟨S4000000, .i1⟩
  | 32 => ⟨S_, .i32⟩
  | 33 => ⟨S4000000, .i32⟩
  | 34 => ⟨S4000000, .i32⟩
  | 35 => ⟨S4000000, .i32⟩
  | 36 => ⟨S4000000x1, .i32⟩
  | 37 => ⟨S4000000x3, .f32⟩
  | 38 => ⟨S4000000x6, .f32⟩
  | 39 => ⟨S4000000x8, .f32⟩
  | 40 => ⟨S1x8, .f32⟩
  | 41 => ⟨S4000000x8, .f32⟩
  | 42 => ⟨S4000000x8, .f32⟩
  | 43 => ⟨S_, .f32⟩
  | 44 => ⟨S4000000, .f32⟩
  | 45 => ⟨S4000000x1, .f32⟩
  | 46 => ⟨S_, .f32⟩
  | 47 => ⟨S4000000x1, .f32⟩
  | 48 => ⟨S4000000x1, .f32⟩
  | 49 => ⟨S4000000x8, .f32⟩
  | 50 => ⟨S4000000x8, .f32⟩
  | 51 => ⟨S4000000x8, .f32⟩
  | 52 => ⟨S_, .f32⟩
  | 53 => ⟨S4000000, .f32⟩
  | 54 => ⟨S4000000x1, .f32⟩
  | 55 => ⟨S_, .f32⟩
  | 56 => ⟨S4000000x1, .f32⟩
  | 57 => ⟨S4000000x1, .f32⟩
  | 58 => ⟨S4000000x8, .f32⟩
  | 59 => ⟨S4000000x8, .f32⟩
  | 60 => ⟨S_, .f32⟩
  | 61 => ⟨S4000000x1, .f32⟩
  | 62 => ⟨S4000000x1, .f32⟩
  | 63 => ⟨S4000000x1, .f32⟩
  | 64 => ⟨S4000000x8, .f32⟩
  | 65 => ⟨S4000000x8, .f32⟩
  | 66 => ⟨S1x8, .f32⟩
  | 67 => ⟨S4000000x8, .f32⟩
  | 68 => ⟨S4000000x8, .f32⟩
  | 69 => ⟨S1x8, .f32⟩
  | 70 => ⟨S4000000x8, .f32⟩
  | 71 => ⟨S4000000x8, .f32⟩
  | 72 => ⟨S4000000x8, .f32⟩
  | 73 => ⟨S4000000x8, .f32⟩
  | 74 => ⟨S1x8, .f32⟩
  | 75 => ⟨S4000000x8, .f32⟩
  | 76 => ⟨S4000000x8, .f32⟩
  | 77 => ⟨S_, .f32⟩
  | 78 => ⟨S4000000, .f32⟩
  | 79 => ⟨S4000000x1, .f32⟩
  | 80 => ⟨S_, .f32⟩
  | 81 => ⟨S4000000x1, .f32⟩
  | 82 => ⟨S4000000x1, .f32⟩
  | 83 => ⟨S4000000x8, .f32⟩
  | 84 => ⟨S4000000x8, .f32⟩
  | 85 => ⟨S4000000x8, .f32⟩
  | 86 => ⟨S_, .f32⟩
  | 87 => ⟨S4000000, .f32⟩
  | 88 => ⟨S4000000x1, .f32⟩
  | 89 => ⟨S_, .f32⟩
  | 90 => ⟨S4000000x1, .f32⟩
  | 91 => ⟨S4000000x1, .f32⟩
  | 92 => ⟨S4000000x8, .f32⟩
  | 93 => ⟨S4000000x8, .f32⟩
  | 94 => ⟨S_, .f32⟩
  | 95 => ⟨S4000000x1, .f32⟩
  | 96 => ⟨S4000000x1, .f32⟩
  | 97 => ⟨S4000000x1, .f32⟩
  | 98 => ⟨S4000000x8, .f32⟩
  | 99 => ⟨S4000000x8, .f32⟩
  | 100 => ⟨S1x8, .f32⟩
  | 101 => ⟨S4000000x8, .f32⟩
  | 102 => ⟨S4000000x8, .f32⟩
  | 103 => ⟨S1x8, .f32⟩
  | 104 => ⟨S4000000x8, .f32⟩
  | 105 => ⟨S4000000x8, .f32⟩
  | 106 => ⟨S4000000x8, .f32⟩
  | 107 => ⟨S4000000x8, .f32⟩
  | 108 => ⟨S1x8, .f32⟩
  | 109 => ⟨S4000000x8, .f32⟩
  | 110 => ⟨S4000000x8, .f32⟩
  | 111 => ⟨S_, .f32⟩
  | 112 => ⟨S4000000, .f32⟩
  | 113 => ⟨S4000000x1, .f32⟩
  | 114 => ⟨S_, .f32⟩
  | 115 => ⟨S4000000x1, .f32⟩
  | 116 => ⟨S4000000x1, .f32⟩
  | 117 => ⟨S4000000x8, .f32⟩
  | 118 => ⟨S4000000x8, .f32⟩
  | 119 => ⟨S4000000x8, .f32⟩
  | 120 => ⟨S_, .f32⟩
  | 121 => ⟨S4000000, .f32⟩
  | 122 => ⟨S4000000x1, .f32⟩
  | 123 => ⟨S_, .f32⟩
  | 124 => ⟨S4000000x1, .f32⟩
  | 125 => ⟨S4000000x1, .f32⟩
  | 126 => ⟨S4000000x8, .f32⟩
  | 127 => ⟨S4000000x8, .f32⟩
  | _ => ⟨S100000x3, .f32⟩

abbrev hbmTy0_1 (i : Nat) : BufTy := match i % 128 with
  | 0 => ⟨S_, .f32⟩
  | 1 => ⟨S4000000x1, .f32⟩
  | 2 => ⟨S4000000x1, .f32⟩
  | 3 => ⟨S4000000x1, .f32⟩
  | 4 => ⟨S4000000x8, .f32⟩
  | 5 => ⟨S4000000x8, .f32⟩
  | 6 => ⟨S1x8, .f32⟩
  | 7 => ⟨S4000000x8, .f32⟩
  | 8 => ⟨S4000000x8, .f32⟩
  | 9 => ⟨S1x8, .f32⟩
  | 10 => ⟨S4000000x8, .f32⟩
  | 11 => ⟨S4000000x8, .f32⟩
  | 12 => ⟨S4000000x8, .f32⟩
  | 13 => ⟨S4000000x1, .f32⟩
  | 14 => ⟨S1x1, .f32⟩
  | 15 => ⟨S4000000x1, .f32⟩
  | 16 => ⟨S4000000x1, .f32⟩
  | 17 => ⟨S4000000, .f32⟩
  | _ => ⟨S100000x3, .f32⟩

abbrev hbmTy (i : Nat) : BufTy := match i / 128 with
  | 0 => hbmTy0_0 i
  | 1 => hbmTy0_1 i
  | _ => ⟨S100000x3, .f32⟩

abbrev bufTy : (tb : Table) → Fin (tcTables nBuf tb) → BufTy
  | .hbm, ⟨i, _⟩ => hbmTy i
  | _, _ => ⟨S100000x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_c : Ref sig .tc := ⟨.hbm, 20, rfl⟩
abbrev main_v4 : Ref sig .tc := ⟨.hbm, 21, rfl⟩
abbrev main_v5 : Ref sig .tc := ⟨.hbm, 22, rfl⟩
abbrev main_c_0 : Ref sig .tc := ⟨.hbm, 23, rfl⟩
abbrev main_v6 : Ref sig .tc := ⟨.hbm, 24, rfl⟩
abbrev main_v7 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_c_1 : Ref sig .tc := ⟨.hbm, 29, rfl⟩
abbrev main_v11 : Ref sig .tc := ⟨.hbm, 30, rfl⟩
abbrev main_v12 : Ref sig .tc := ⟨.hbm, 31, rfl⟩
abbrev main_c_2 : Ref sig .tc := ⟨.hbm, 32, rfl⟩
abbrev main_v13 : Ref sig .tc := ⟨.hbm, 33, rfl⟩
abbrev main_v14 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_cst : Ref sig .tc := ⟨.hbm, 43, rfl⟩
abbrev main_v23 : Ref sig .tc := ⟨.hbm, 44, rfl⟩
abbrev main_v24 : Ref sig .tc := ⟨.hbm, 45, rfl⟩
abbrev main_cst_3 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_cst_4 : Ref sig .tc := ⟨.hbm, 52, rfl⟩
abbrev main_v30 : Ref sig .tc := ⟨.hbm, 53, rfl⟩
abbrev main_v31 : Ref sig .tc := ⟨.hbm, 54, rfl⟩
abbrev main_cst_5 : Ref sig .tc := ⟨.hbm, 55, rfl⟩
abbrev main_v32 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩
abbrev main_cst_6 : Ref sig .tc := ⟨.hbm, 60, rfl⟩
abbrev main_v36 : Ref sig .tc := ⟨.hbm, 61, rfl⟩
abbrev main_v37 : Ref sig .tc := ⟨.hbm, 62, rfl⟩
abbrev main_v38 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_cst_7 : Ref sig .tc := ⟨.hbm, 77, rfl⟩
abbrev main_v52 : Ref sig .tc := ⟨.hbm, 78, rfl⟩
abbrev main_v53 : Ref sig .tc := ⟨.hbm, 79, rfl⟩
abbrev main_cst_8 : Ref sig .tc := ⟨.hbm, 80, rfl⟩
abbrev main_v54 : Ref sig .tc := ⟨.hbm, 81, rfl⟩
abbrev main_v55 : Ref sig .tc := ⟨.hbm, 82, rfl⟩
abbrev main_v56 : Ref sig .tc := ⟨.hbm, 83, rfl⟩
abbrev main_v57 : Ref sig .tc := ⟨.hbm, 84, rfl⟩
abbrev main_v58 : Ref sig .tc := ⟨.hbm, 85, rfl⟩
abbrev main_cst_9 : Ref sig .tc := ⟨.hbm, 86, rfl⟩
abbrev main_v59 : Ref sig .tc := ⟨.hbm, 87, rfl⟩
abbrev main_v60 : Ref sig .tc := ⟨.hbm, 88, rfl⟩
abbrev main_cst_10 : Ref sig .tc := ⟨.hbm, 89, rfl⟩
abbrev main_v61 : Ref sig .tc := ⟨.hbm, 90, rfl⟩
abbrev main_v62 : Ref sig .tc := ⟨.hbm, 91, rfl⟩
abbrev main_v63 : Ref sig .tc := ⟨.hbm, 92, rfl⟩
abbrev main_v64 : Ref sig .tc := ⟨.hbm, 93, rfl⟩
abbrev main_cst_11 : Ref sig .tc := ⟨.hbm, 94, rfl⟩
abbrev main_v65 : Ref sig .tc := ⟨.hbm, 95, rfl⟩
abbrev main_v66 : Ref sig .tc := ⟨.hbm, 96, rfl⟩
abbrev main_v67 : Ref sig .tc := ⟨.hbm, 97, rfl⟩
abbrev main_v68 : Ref sig .tc := ⟨.hbm, 98, rfl⟩
abbrev main_v69 : Ref sig .tc := ⟨.hbm, 99, rfl⟩
abbrev main_v70 : Ref sig .tc := ⟨.hbm, 100, rfl⟩
abbrev main_v71 : Ref sig .tc := ⟨.hbm, 101, rfl⟩
abbrev main_v72 : Ref sig .tc := ⟨.hbm, 102, rfl⟩
abbrev main_v73 : Ref sig .tc := ⟨.hbm, 103, rfl⟩
abbrev main_v74 : Ref sig .tc := ⟨.hbm, 104, rfl⟩
abbrev main_v75 : Ref sig .tc := ⟨.hbm, 105, rfl⟩
abbrev main_v76 : Ref sig .tc := ⟨.hbm, 106, rfl⟩
abbrev main_v77 : Ref sig .tc := ⟨.hbm, 107, rfl⟩
abbrev main_v78 : Ref sig .tc := ⟨.hbm, 108, rfl⟩
abbrev main_v79 : Ref sig .tc := ⟨.hbm, 109, rfl⟩
abbrev main_v80 : Ref sig .tc := ⟨.hbm, 110, rfl⟩
abbrev main_cst_12 : Ref sig .tc := ⟨.hbm, 111, rfl⟩
abbrev main_v81 : Ref sig .tc := ⟨.hbm, 112, rfl⟩
abbrev main_v82 : Ref sig .tc := ⟨.hbm, 113, rfl⟩
abbrev main_cst_13 : Ref sig .tc := ⟨.hbm, 114, rfl⟩
abbrev main_v83 : Ref sig .tc := ⟨.hbm, 115, rfl⟩
abbrev main_v84 : Ref sig .tc := ⟨.hbm, 116, rfl⟩
abbrev main_v85 : Ref sig .tc := ⟨.hbm, 117, rfl⟩
abbrev main_v86 : Ref sig .tc := ⟨.hbm, 118, rfl⟩
abbrev main_v87 : Ref sig .tc := ⟨.hbm, 119, rfl⟩
abbrev main_cst_14 : Ref sig .tc := ⟨.hbm, 120, rfl⟩
abbrev main_v88 : Ref sig .tc := ⟨.hbm, 121, rfl⟩
abbrev main_v89 : Ref sig .tc := ⟨.hbm, 122, rfl⟩
abbrev main_cst_15 : Ref sig .tc := ⟨.hbm, 123, rfl⟩
abbrev main_v90 : Ref sig .tc := ⟨.hbm, 124, rfl⟩
abbrev main_v91 : Ref sig .tc := ⟨.hbm, 125, rfl⟩
abbrev main_v92 : Ref sig .tc := ⟨.hbm, 126, rfl⟩
abbrev main_v93 : Ref sig .tc := ⟨.hbm, 127, rfl⟩
abbrev main_cst_16 : Ref sig .tc := ⟨.hbm, 128, rfl⟩
abbrev main_v94 : Ref sig .tc := ⟨.hbm, 129, rfl⟩
abbrev main_v95 : Ref sig .tc := ⟨.hbm, 130, rfl⟩
abbrev main_v96 : Ref sig .tc := ⟨.hbm, 131, rfl⟩
abbrev main_v97 : Ref sig .tc := ⟨.hbm, 132, rfl⟩
abbrev main_v98 : Ref sig .tc := ⟨.hbm, 133, rfl⟩
abbrev main_v99 : Ref sig .tc := ⟨.hbm, 134, rfl⟩
abbrev main_v100 : Ref sig .tc := ⟨.hbm, 135, rfl⟩
abbrev main_v101 : Ref sig .tc := ⟨.hbm, 136, rfl⟩
abbrev main_v102 : Ref sig .tc := ⟨.hbm, 137, rfl⟩
abbrev main_v103 : Ref sig .tc := ⟨.hbm, 138, rfl⟩
abbrev main_v104 : Ref sig .tc := ⟨.hbm, 139, rfl⟩
abbrev main_v105 : Ref sig .tc := ⟨.hbm, 140, rfl⟩
abbrev main_v106 : Ref sig .tc := ⟨.hbm, 141, rfl⟩
abbrev main_v107 : Ref sig .tc := ⟨.hbm, 142, rfl⟩
abbrev main_v108 : Ref sig .tc := ⟨.hbm, 143, rfl⟩
abbrev main_v109 : Ref sig .tc := ⟨.hbm, 144, rfl⟩
abbrev main_v110 : Ref sig .tc := ⟨.hbm, 145, rfl⟩

abbrev nD : Nat := 1
abbrev τ : Topo := Topo.v7x

variable {F : FTy → Type} [FloatOps F]

class Facts₀ : Prop where
  slices_S2x4000000_S1x4000000_0_0 : S2x4000000.Slices ![0, 0] S1x4000000
  shapeCasts_S1x4000000_S4000000 : S1x4000000.ShapeCasts S4000000
  slices_S2x4000000_S1x4000000_1_0 : S2x4000000.Slices ![1, 0] S1x4000000
  bcast_S_S4000000 : S_.BroadcastsInDim S4000000 (![] : Fin 0 → Fin S4000000.rank)
  bcast_S4000000_S4000000x1_0 : S4000000.BroadcastsInDim S4000000x1 (![0] : Fin 1 → Fin S4000000x1.rank)
  concatenates_S4000000x3_S4000000x3_S4000000x6_d1 : Shape.Concatenates [S4000000x3, S4000000x3] S4000000x6 1
  bcast_S8_S1x8_1 : S8.BroadcastsInDim S1x8 (![1] : Fin 1 → Fin S1x8.rank)
  bcast_S1x8_S4000000x8_0_1 : S1x8.BroadcastsInDim S4000000x8 (![0, 1] : Fin 2 → Fin S4000000x8.rank)
  reducesTo_S4000000x8_S4000000_d1 : S4000000x8.ReducesTo [1] S4000000
  h_S_ : 0 < S_.numel
  bcast_S_S4000000x1 : S_.BroadcastsInDim S4000000x1 (![] : Fin 0 → Fin S4000000x1.rank)
  bcast_S4000000x1_S4000000x8_0_1 : S4000000x1.BroadcastsInDim S4000000x8 (![0, 1] : Fin 2 → Fin S4000000x8.rank)
  bcast_S1_S1x1_1 : S1.BroadcastsInDim S1x1 (![1] : Fin 1 → Fin S1x1.rank)
  bcast_S1x1_S4000000x1_0_1 : S1x1.BroadcastsInDim S4000000x1 (![0, 1] : Fin 2 → Fin S4000000x1.rank)
  shapeCasts_S4000000x1_S4000000 : S4000000x1.ShapeCasts S4000000
  gather_S100000x3_S4000000x1_S4000000x3_1_0_n_n_0_1_13_wf : GatherDims.WF S100000x3 S4000000x1 S4000000x3 [1] [0] [] [0] [] 1 ![1, 3]
  dot_S4000000x6_S6x8_S4000000x8_1_0_0_1_n_n_wf : DotDims.WF S4000000x6 S6x8 S4000000x8 [1] [0] [0] [1] [] []
  dot_S4000000x8_S8x8_S4000000x8_1_0_0_1_n_n_wf : DotDims.WF S4000000x8 S8x8 S4000000x8 [1] [0] [0] [1] [] []
  dot_S4000000x8_S8x1_S4000000x1_1_0_0_1_n_n_wf : DotDims.WF S4000000x8 S8x1 S4000000x1 [1] [0] [0] [1] [] []

variable [Facts₀]

def gather_S100000x3_S4000000x1_S4000000x3_1_0_n_n_0_1_13 : GatherDims S100000x3 S4000000x1 S4000000x3 where
  offsetDims := [1]
  collapsedSliceDims := [0]
  operandBatchingDims := []
  startIndicesBatchingDims := []
  startIndexMap := [0]
  indexVectorDim := 1
  sliceSizes := ![1, 3]
  wf := gather_S100000x3_S4000000x1_S4000000x3_1_0_n_n_0_1_13_wf
def dot_S4000000x6_S6x8_S4000000x8_1_0_0_1_n_n : DotDims S4000000x6 S6x8 S4000000x8 where
  lhsContracting := [1]
  rhsContracting := [0]
  lhsNonContracting := [0]
  rhsNonContracting := [1]
  lhsBatch := []
  rhsBatch := []
  wf := dot_S4000000x6_S6x8_S4000000x8_1_0_0_1_n_n_wf
def dot_S4000000x8_S8x8_S4000000x8_1_0_0_1_n_n : DotDims S4000000x8 S8x8 S4000000x8 where
  lhsContracting := [1]
  rhsContracting := [0]
  lhsNonContracting := [0]
  rhsNonContracting := [1]
  lhsBatch := []
  rhsBatch := []
  wf := dot_S4000000x8_S8x8_S4000000x8_1_0_0_1_n_n_wf
def dot_S4000000x8_S8x1_S4000000x1_1_0_0_1_n_n : DotDims S4000000x8 S8x1 S4000000x1 where
  lhsContracting := [1]
  rhsContracting := [0]
  lhsNonContracting := [0]
  rhsNonContracting := [1]
  lhsBatch := []
  rhsBatch := []
  wf := dot_S4000000x8_S8x1_S4000000x1_1_0_0_1_n_n_wf

class Facts : Prop extends Facts₀ where

variable [Facts]
-- ==== Proof.FeatK.lean ====
/-
  The edge features both programs feed their first layer: for edge `i`, the three coordinates of its start node
  followed by the three of its end node.  A node number is read from the edge list's row (row 0 the start nodes,
  row 1 the end nodes), a negative one is moved up by the node count once, and the node table's row at that
  number is taken by the host gather; the two gathered blocks are joined along the feature axis.
-/
import proofs.«126648_j24524263260404_1_alg».proof.Proof.Gen.KernelIdeal
import Idealize.ShloMosaic.PureOps.Ideal

noncomputable section

namespace Cert.KernelIdeal.Feat

open Cert.KernelIdeal Cert.KernelIdeal.Gen Idealize.ShloMosaic Idealize.ShloMosaic.TcCoe

/-- The start node of every edge: row 0 of the edge list as a vector. -/
def startNodes (ei : IVec S2x4000000 32) : IVec S4000000 32 :=
  shapeCast S4000000 (extractStridedSlice S1x4000000 ![0, 0] ei slices_S2x4000000_S1x4000000_0_0) shapeCasts_S1x4000000_S4000000

/-- The end node of every edge: row 1 of the edge list as a vector. -/
def endNodes (ei : IVec S2x4000000 32) : IVec S4000000 32 :=
  shapeCast S4000000 (extractStridedSlice S1x4000000 ![1, 0] ei slices_S2x4000000_S1x4000000_1_0) shapeCasts_S1x4000000_S4000000

/-- Node numbers as the gather's start indices: a negative number has the node count added, and each number
    becomes a one-entry index vector. -/
def wrapped (v : IVec S4000000 32) : IVec S4000000x1 32 :=
  broadcastInDim S4000000x1 ![0] bcast_S4000000_S4000000x1_0
    (select (cmpi .slt v (broadcastInDim S4000000 ![] bcast_S_S4000000 (constantI S_ 32 0#32)))
      (addi v (broadcastInDim S4000000 ![] bcast_S_S4000000 (constantI S_ 32 100000#32))) v)

/-- The edge features: the start nodes' rows of `x` beside the end nodes' rows. -/
def edgeFeat (x : FVec Ideal S100000x3 .f32) (ei : IVec S2x4000000 32) : FVec Ideal S4000000x6 .f32 :=
  concatenate S4000000x6 1
    [⟨S4000000x3, Host.gather gather_S100000x3_S4000000x1_S4000000x3_1_0_n_n_0_1_13 x (wrapped (startNodes ei))⟩,
     ⟨S4000000x3, Host.gather gather_S100000x3_S4000000x1_S4000000x3_1_0_n_n_0_1_13 x (wrapped (endNodes ei))⟩]
    concatenates_S4000000x3_S4000000x3_S4000000x6_d1

end Cert.KernelIdeal.Feat

end
-- ==== Proof.KHost.lean ====
/-
  What the region finds in the arrays the host writes before it, and what the host line after it makes of
  the region's output.

  Before the region the host builds the edge features (rows of the node table gathered at each edge's two
  nodes, joined), pads them with zero rows up to a whole number of blocks of 65536 rows, and narrows the four
  weight matrices, which at the exact values changes nothing.  After the region it keeps the first 4000000
  entries of the output.
-/
import proofs.«126648_j24524263260404_1_alg».proof.Proof.Gen.KernelIdeal.Frame
import proofs.«126648_j24524263260404_1_alg».proof.Proof.FeatK
import Idealize.ShloMosaic.Lib.Pipeline.Value
import Idealize.ShloMosaic.Lib.KernelVsHost
import Idealize.ShloMosaic.Lib.StableHlo.Run
import Idealize.ShloMosaic.Lib.ValueIdx

noncomputable section

namespace Cert.KernelIdeal.KHost

open Cert.KernelIdeal Cert.KernelIdeal.Gen Idealize.ShloMosaic Idealize.ShloMosaic.TcCoe Idealize.ShloMosaic.ValueIdx
open Idealize.SL.Sem Idealize.ShloMosaic.StableHlo

variable (m : (ℓ : Loc nD τ sig) → Buf (Elt Ideal) ℓ)

set_option maxHeartbeats 4000000 in
/-- The padded edge features as the region finds them: the edge features with zero rows appended below. (Narrowing
    the node table before the gather changes nothing at the exact values.) -/
theorem V_v20 (c : Dev nD) :
    (V m c main_v20 : S4063232x6.Idx → EReal)
      = pad S4063232x6 ![0, 0] ![63232, 0] ![0, 0]
          (Feat.edgeFeat (m ((c : Thread nD τ).loc main_arg0)) (m ((c : Thread nD τ).loc main_arg1)))
          (sitofp (F := Ideal) .bf16 (constantI S_ 32 0#32)) pads_S4000000x6_S4063232x6_0632320_000 h_S_ := by
  dsimp only [V, V0]
  simp only [hostOps0, hostOps0_1, hostOps0_2, List.flatten_cons, List.flatten_nil, List.append_nil, List.cons_append,
    List.nil_append]
  after_results
  rfl

/-- Row `i` of the padded edge features, for an edge `i` below 4000000, is row `i` of the edge features. -/
theorem V_v20_row (c : Dev nD) (i : Fin 4000000) (k : Fin 6) (i' : Fin 4063232) (hi : i'.val = i.val) :
    (V m c main_v20 : S4063232x6.Idx → EReal) (ix2 i' k)
      = Feat.edgeFeat (m ((c : Thread nD τ).loc main_arg0)) (m ((c : Thread nD τ).loc main_arg1)) (ix2 i k) := by
  rw [V_v20]
  refine pad_apply_of_inside _ _ _ _ _ _ _ (ix2 i' k) (ix2 i k) fun a => ?_
  match a with
  | ⟨0, _⟩ => show i'.val = 0 + i.val * (0 + 1); omega
  | ⟨1, _⟩ => show k.val = 0 + k.val * (0 + 1); omega

/-- The first layer's weights as the region finds them: the argument (narrowing is the identity at the exact values). -/
theorem V_v21 (c : Dev nD) : (V m c main_v21 : S6x8.Idx → EReal) = m ((c : Thread nD τ).loc main_arg2) := by
  dsimp only [V, V0]
  simp only [hostOps0, hostOps0_1, hostOps0_2, List.flatten_cons, List.flatten_nil, List.append_nil, List.cons_append,
    List.nil_append]
  after_results
  rfl

/-- The second layer's weights as the region finds them. -/
theorem V_v22 (c : Dev nD) : (V m c main_v22 : S8x8.Idx → EReal) = m ((c : Thread nD τ).loc main_arg6) := by
  dsimp only [V, V0]
  simp only [hostOps0, hostOps0_1, hostOps0_2, List.flatten_cons, List.flatten_nil, List.append_nil, List.cons_append,
    List.nil_append]
  after_results
  rfl

/-- The third layer's weights as the region finds them. -/
theorem V_v23 (c : Dev nD) : (V m c main_v23 : S8x8.Idx → EReal) = m ((c : Thread nD τ).loc main_arg10) := by
  dsimp only [V, V0]
  simp only [hostOps0, hostOps0_1, hostOps0_2, List.flatten_cons, List.flatten_nil, List.append_nil, List.cons_append,
    List.nil_append]
  after_results
  rfl

/-- The last layer's weights as the region finds them. -/
theorem V_v24 (c : Dev nD) : (V m c main_v24 : S8x1.Idx → EReal) = m ((c : Thread nD τ).loc main_arg14) := by
  dsimp only [V, V0]
  simp only [hostOps0, hostOps0_1, hostOps0_2, List.flatten_cons, List.flatten_nil, List.append_nil, List.cons_append,
    List.nil_append]
  after_results
  rfl

/-- The program's result: the host line after the region keeps the first 4000000 entries of the region's output. -/
theorem tail_v26 (c : Dev nD) :
    (Pipeline.afterTail₀ cfgs (dats m) 0 (V0 m) [hostOps1] c main_v26 : S4000000.Idx → EReal)
      = extractStridedSlice S4000000 ![0] ((dats m 0 c).arrAt 15 cfg0.N) slices_S4063232_S4000000_0 := by
  unfold Pipeline.afterTail₀
  show StableHlo.after hostOps1 _ (Proc.devRef .tc main_v26) = _
  after_results
  exact congrArg (fun x => extractStridedSlice S4000000 ![0] x slices_S4063232_S4000000_0)
    (Pipeline.withArrays_arr spec0 launch0.win.arr_inj c (V0 m c) _ 15)

/-- Entry `i` of the result is entry `i` of the region's output. -/
theorem tail_v26_apply (c : Dev nD) (i : Fin 4000000) (i' : Fin 4063232) (hi : i'.val = i.val) :
    (Pipeline.afterTail₀ cfgs (dats m) 0 (V0 m) [hostOps1] c main_v26 : S4000000.Idx → EReal) (ix1 i)
      = ((dats m 0 c).arrAt 15 cfg0.N : S4063232.Idx → EReal) (ix1 i') := by
  rw [tail_v26]
  refine extractStridedSlice_apply _ _ _ (ix1 i) (ix1 i') fun a => ?_
  match a with
  | ⟨0, _⟩ => show i'.val = 0 + i.val; omega

end Cert.KernelIdeal.KHost

end
-- ==== Proof.Spec.lean ====
/-
  The per-edge function both programs compute, written once over rows.

  An edge's feature row `e` has six entries (the three coordinates of its start node, then the three of its
  end node).  Three times over, a row is sent through an affine map `a ↦ a·W + b`, normalised to zero mean and
  unit variance over its eight entries (variance offset by a fixed `eps`, then the reciprocal square root),
  scaled and shifted entrywise by `g` and `be`, and passed through `tanh`; a last affine map to one entry
  gives the edge's output.  Every operation is the exact one on the extended reals, so a sum over a row's
  entries is a `Finset` sum whose order does not matter.
-/
import Idealize.ShloMosaic.PureOps.Ideal
import Idealize.ShloMosaic.Lib.ValueIdx

noncomputable section

open Idealize.ShloMosaic Idealize.ShloMosaic.ValueIdx

namespace EdgeMlp

/-- The divisor of a row mean: the float word of `8`, read as an extended real. -/
abbrev eight : EReal := Ideal.ofBits .f32 0x41000000#32

/-- The variance offset: the float word nearest `1e-5`, read as an extended real. -/
abbrev eps : EReal := Ideal.ofBits .f32 0x3727C5AC#32

/-- The mean of a row of eight entries: their sum divided by `8`. -/
def mean8 (h : Fin 8 → EReal) : EReal := Ideal.div (∑ k : Fin 8, h k) eight

/-- Entry `j` of `tanh (g · (h - mean h) · rsqrt (var h + eps) + be)`, the variance being the mean of the
    squared deviations. -/
def normTanh (h g be : Fin 8 → EReal) (j : Fin 8) : EReal :=
  Ideal.tanh ((h j - mean8 h) * Ideal.rsqrt (Ideal.div (∑ k : Fin 8, (h k - mean8 h) * (h k - mean8 h)) eight + eps)
    * g j + be j)

/-- Entry `j` of `a·W + b`: the sum over the contracted entry, then the bias. -/
def affine {n p : Nat} (a : Fin n → EReal) (W : Fin n → Fin p → EReal) (b : Fin p → EReal) (j : Fin p) : EReal :=
  (∑ k : Fin n, a k * W k j) + b j

/-- One edge's output from its feature row and the four layers' parameters. -/
def mlpRow (e : Fin 6 → EReal)
    (W0 : Fin 6 → Fin 8 → EReal) (b0 g0 be0 : Fin 8 → EReal)
    (W1 : Fin 8 → Fin 8 → EReal) (b1 g1 be1 : Fin 8 → EReal)
    (W2 : Fin 8 → Fin 8 → EReal) (b2 g2 be2 : Fin 8 → EReal)
    (W3 : Fin 8 → Fin 1 → EReal) (b3 : Fin 1 → EReal) : EReal :=
  affine (normTanh (affine (normTanh (affine (normTanh (affine e W0 b0) g0 be0) W1 b1) g1 be1) W2 b2) g2 be2) W3 b3 0

/-- The whole result: edge `i`'s output from row `i` of the edge features `E` and the parameter arrays. -/
def G (E : (⟨2, ![4000000, 6]⟩ : Shape).Idx → EReal)
    (W0 : (⟨2, ![6, 8]⟩ : Shape).Idx → EReal) (b0 g0 be0 : (⟨1, ![8]⟩ : Shape).Idx → EReal)
    (W1 : (⟨2, ![8, 8]⟩ : Shape).Idx → EReal) (b1 g1 be1 : (⟨1, ![8]⟩ : Shape).Idx → EReal)
    (W2 : (⟨2, ![8, 8]⟩ : Shape).Idx → EReal) (b2 g2 be2 : (⟨1, ![8]⟩ : Shape).Idx → EReal)
    (W3 : (⟨2, ![8, 1]⟩ : Shape).Idx → EReal) (b3 : (⟨1, ![1]⟩ : Shape).Idx → EReal) :
    (⟨1, ![4000000]⟩ : Shape).Idx → EReal :=
  fun i => mlpRow (fun k => E (ix2 (i 0) k))
    (fun k j => W0 (ix2 k j)) (fun j => b0 (ix1 j)) (fun j => g0 (ix1 j)) (fun j => be0 (ix1 j))
    (fun k j => W1 (ix2 k j)) (fun j => b1 (ix1 j)) (fun j => g1 (ix1 j)) (fun j => be1 (ix1 j))
    (fun k j => W2 (ix2 k j)) (fun j => b2 (ix1 j)) (fun j => g2 (ix1 j)) (fun j => be2 (ix1 j))
    (fun k j => W3 (ix2 k j)) (fun j => b3 (ix1 j))

end EdgeMlp

end
-- ==== Proof.PayRows.lean ====
/-
  The kernel body's arithmetic, read at one row.

  The body holds 65536 edges at a time, one edge a row.  Every stage of it is either pointwise, or works inside a
  row (a sum over the row's eight entries, a product of the row with a small matrix), or copies one row of
  parameters to every row.  So entry `(r, j)` of every stage is a function of row `r` of the stage's inputs alone,
  and the last stage at `r` is the specification's `mlpRow` of row `r` of the edge features.

  First the layout operations read at an index given by coordinates (a column `[a]` viewed `[a, 1]` and back, a
  column copied along the rows, one row copied to every row), then the sum over a row and the three matrix
  products, then the stages, then their composition.
-/
import proofs.«126648_j24524263260404_1_alg».proof.Proof.Gen.KernelIdeal.Skeleton
import proofs.«126648_j24524263260404_1_alg».proof.Proof.Spec
import Idealize.ShloMosaic.PureOps.Ideal.Laws
import Idealize.ShloMosaic.Lib.ValueIdx
import Idealize.ShloMosaic.Lib.ValueLayout
import Idealize.ShloMosaic.Lib.Pipeline.Value

noncomputable section

namespace Cert.KernelIdeal.PayRows

open Cert.KernelIdeal Cert.KernelIdeal.Gen Idealize.ShloMosaic Idealize.ShloMosaic.TcCoe Idealize.ShloMosaic.ValueIdx

/-! ## Layout operations at an index given by coordinates -/

section Layout
variable {α : Type}

/-- A vector `[a]` viewed as a column `[a, 1]` reads, at `(r, c)`, entry `r`. -/
theorem shapeCast_a_a1_apply {a : ℕ} (x : (⟨1, ![a]⟩ : Shape).Idx → α) (h : (⟨1, ![a]⟩ : Shape).ShapeCasts ⟨2, ![a, 1]⟩)
    (r : Fin a) (c : Fin 1) : shapeCast ⟨2, ![a, 1]⟩ x h (ix2 r c) = x (ix1 r) :=
  shapeCast_apply x h _ _ (by
    have hc : c.val = 0 := by omega
    rw [Shape.rowMajor_val_two, Shape.rowMajor_val_one]
    show r.val = r.val * 1 + c.val
    rw [hc, Nat.mul_one, Nat.add_zero])

/-- A column `[a, 1]` viewed as a vector `[a]` reads, at `r`, entry `(r, 0)`. -/
theorem shapeCast_a1_a_apply {a : ℕ} (x : (⟨2, ![a, 1]⟩ : Shape).Idx → α) (h : (⟨2, ![a, 1]⟩ : Shape).ShapeCasts ⟨1, ![a]⟩)
    (r : Fin a) : shapeCast ⟨1, ![a]⟩ x h (ix1 r) = x (ix2 r (0 : Fin 1)) :=
  shapeCast_apply x h _ _ (by
    rw [Shape.rowMajor_val_two, Shape.rowMajor_val_one]
    show r.val * 1 + 0 = r.val
    rw [Nat.mul_one, Nat.add_zero])

/-- A column `[a, 1]` copied along the rows to `[a, b]` reads, at `(r, j)`, the column's entry `(r, 0)`. -/
theorem broadcastTo_a1_ab_apply {a b : ℕ} (v : (⟨2, ![a, 1]⟩ : Shape).Idx → α)
    (h : (⟨2, ![a, 1]⟩ : Shape).Broadcasts ⟨2, ![a, b]⟩) (r : Fin a) (j : Fin b) :
    broadcastTo ⟨2, ![a, b]⟩ v h (ix2 r j) = v (ix2 r (0 : Fin 1)) := by
  refine broadcastTo_apply v h (ix2 r j) (ix2 r (0 : Fin 1)) fun ax => ?_
  match ax with
  | ⟨0, _⟩ =>
    show r.val = if a = 1 then 0 else r.val
    split
    · have := r.isLt; omega
    · rfl
  | ⟨1, _⟩ => rfl

/-- A parameter vector `[b]` viewed as one row and copied to every row of `[a, b]` reads, at `(r, j)`, its entry `j`. -/
theorem row_apply {a b : ℕ} (v : (⟨1, ![b]⟩ : Shape).Idx → α) (h₁ : (⟨1, ![b]⟩ : Shape).ShapeCasts ⟨2, ![1, b]⟩)
    (h₂ : (⟨2, ![1, b]⟩ : Shape).Broadcasts ⟨2, ![a, b]⟩) (r : Fin a) (j : Fin b) :
    broadcastTo ⟨2, ![a, b]⟩ (shapeCast ⟨2, ![1, b]⟩ v h₁) h₂ (ix2 r j) = v (ix1 j) :=
  (broadcastTo_1b_ab_apply _ h₂ r j).trans (shapeCast_a_1a_apply v h₁ 0 j)

end Layout

/-! ## The sum over a row -/

/-- The row index `r` with coordinate `k` put back on the summed axis is `(r, k)`. -/
theorem lift_row (r : Fin 65536) (k : Fin 8) :
    Shape.Reduces.lift reduces_S65536x8_S65536 (ix1 r) k = ix2 r k :=
  funext fun a => Fin.ext (by match a with | ⟨0, _⟩ => rfl | ⟨1, _⟩ => rfl)

/-- The lane sum of a `[65536, 8]` stage reads, at `r`, the sum of row `r`'s eight entries (the accumulator word is the
    zero word, so nothing is added to the sum). -/
theorem rowSum_apply (v : FVec Ideal S65536x8 .f32) (hφ : FKind.Formats .f32)
    (hacc : (0x00000000#32 : BitVec 32) = 0x00000000#32) (r : Fin 65536) :
    multiReduction .add [1] S65536 v 0x00000000#32 reduces_S65536x8_S65536 hφ hacc (ix1 r)
      = ∑ k : Fin 8, v (ix2 r k) := by
  refine (Ideal.multiReduction_add_single v 0x00000000#32 reduces_S65536x8_S65536 hφ hacc (ix1 r)).trans ?_
  exact Finset.sum_congr rfl fun k _ => congrArg v (lift_row r k)

/-! ## The three matrix products

Each contracts the left operand's columns with the right operand's rows into a zero accumulator, so its entry
`(r, j)` is the plain sum over the contracted position `k` of `a (r, k) * w (k, j)`.  Per product: the operand indices
coordinate by coordinate, then the sum re-indexed by the contracted coordinate. -/

/-- On the left operand's row axis the operand index is the output's row. -/
theorem lhs_mm0_0 (i : S65536x8.Idx) (q : dot_S65536x6_S6x8_S65536x8_1_0_0_1_n_n.contr.Idx) :
    (dot_S65536x6_S6x8_S65536x8_1_0_0_1_n_n.lhsIdx i q 0).val = (i 0).val := by
  unfold DotDims.lhsIdx
  rw [dif_neg (show ¬(0 : Fin S65536x6.rank) ∈ dot_S65536x6_S6x8_S65536x8_1_0_0_1_n_n.lhsBatch by decide),
    dif_pos (show (0 : Fin S65536x6.rank) ∈ dot_S65536x6_S6x8_S65536x8_1_0_0_1_n_n.lhsNonContracting by decide)]
  rfl
/-- On the left operand's column axis it is the contraction position. -/
theorem lhs_mm0_1 (i : S65536x8.Idx) (q : dot_S65536x6_S6x8_S65536x8_1_0_0_1_n_n.contr.Idx) :
    (dot_S65536x6_S6x8_S65536x8_1_0_0_1_n_n.lhsIdx i q 1).val = (q ⟨0, by decide⟩).val :=
  dot_S65536x6_S6x8_S65536x8_1_0_0_1_n_n.lhsIdx_val_of_single rfl i q
/-- On the right operand's row axis it is the contraction position. -/
theorem rhs_mm0_0 (i : S65536x8.Idx) (q : dot_S65536x6_S6x8_S65536x8_1_0_0_1_n_n.contr.Idx) :
    (dot_S65536x6_S6x8_S65536x8_1_0_0_1_n_n.rhsIdx i q 0).val = (q ⟨0, by decide⟩).val :=
  dot_S65536x6_S6x8_S65536x8_1_0_0_1_n_n.rhsIdx_val_of_single rfl i q
/-- On the right operand's column axis it is the output's column. -/
theorem rhs_mm0_1 (i : S65536x8.Idx) (q : dot_S65536x6_S6x8_S65536x8_1_0_0_1_n_n.contr.Idx) :
    (dot_S65536x6_S6x8_S65536x8_1_0_0_1_n_n.rhsIdx i q 1).val = (i 1).val := by
  unfold DotDims.rhsIdx
  rw [dif_neg (show ¬(1 : Fin S6x8.rank) ∈ dot_S65536x6_S6x8_S65536x8_1_0_0_1_n_n.rhsBatch by decide),
    dif_pos (show (1 : Fin S6x8.rank) ∈ dot_S65536x6_S6x8_S65536x8_1_0_0_1_n_n.rhsNonContracting by decide)]
  rfl

/-- The first layer's product \`[65536, 6] × [6, 8]\` at \`(r, j)\`. -/
theorem mm0_apply (a : FVec Ideal S65536x6 .bf16) (w : FVec Ideal S6x8 .bf16) (r : Fin 65536) (j : Fin 8) :
    matmul dot_S65536x6_S6x8_S65536x8_1_0_0_1_n_n none a w (constant (F := Ideal) S65536x8 .f32 0x00000000#32) (ix2 r j)
      = ∑ k : Fin 6, a (ix2 r k) * w (ix2 k j) := by
  simp only [matmul]
  rw [Ideal.matmul_constant_zero_apply, ← Equiv.sum_comp (contrEquiv1 dot_S65536x6_S6x8_S65536x8_1_0_0_1_n_n 6 rfl rfl).symm]
  refine Finset.sum_congr rfl fun k _ => ?_
  have hk := contrEquiv1_symm_val dot_S65536x6_S6x8_S65536x8_1_0_0_1_n_n 6 rfl rfl k
  have el : dot_S65536x6_S6x8_S65536x8_1_0_0_1_n_n.lhsIdx (ix2 r j) ((contrEquiv1 dot_S65536x6_S6x8_S65536x8_1_0_0_1_n_n 6 rfl rfl).symm k) = ix2 r k :=
    funext fun c => Fin.ext (by
      match c with
      | ⟨0, _⟩ => exact lhs_mm0_0 _ _
      | ⟨1, _⟩ => exact (lhs_mm0_1 _ _).trans hk)
  have er : dot_S65536x6_S6x8_S65536x8_1_0_0_1_n_n.rhsIdx (ix2 r j) ((contrEquiv1 dot_S65536x6_S6x8_S65536x8_1_0_0_1_n_n 6 rfl rfl).symm k) = ix2 k j :=
    funext fun c => Fin.ext (by
      match c with
      | ⟨0, _⟩ => exact (rhs_mm0_0 _ _).trans hk
      | ⟨1, _⟩ => exact rhs_mm0_1 _ _)
  rw [el, er]

/-- On the left operand's row axis the operand index is the output's row. -/
theorem lhs_mm1_0 (i : S65536x8.Idx) (q : dot_S65536x8_S8x8_S65536x8_1_0_0_1_n_n.contr.Idx) :
    (dot_S65536x8_S8x8_S65536x8_1_0_0_1_n_n.lhsIdx i q 0).val = (i 0).val := by
  unfold DotDims.lhsIdx
  rw [dif_neg (show ¬(0 : Fin S65536x8.rank) ∈ dot_S65536x8_S8x8_S65536x8_1_0_0_1_n_n.lhsBatch by decide),
    dif_pos (show (0 : Fin S65536x8.rank) ∈ dot_S65536x8_S8x8_S65536x8_1_0_0_1_n_n.lhsNonContracting by decide)]
  rfl
/-- On the left operand's column axis it is the contraction position. -/
theorem lhs_mm1_1 (i : S65536x8.Idx) (q : dot_S65536x8_S8x8_S65536x8_1_0_0_1_n_n.contr.Idx) :
    (dot_S65536x8_S8x8_S65536x8_1_0_0_1_n_n.lhsIdx i q 1).val = (q ⟨0, by decide⟩).val :=
  dot_S65536x8_S8x8_S65536x8_1_0_0_1_n_n.lhsIdx_val_of_single rfl i q
/-- On the right operand's row axis it is the contraction position. -/
theorem rhs_mm1_0 (i : S65536x8.Idx) (q : dot_S65536x8_S8x8_S65536x8_1_0_0_1_n_n.contr.Idx) :
    (dot_S65536x8_S8x8_S65536x8_1_0_0_1_n_n.rhsIdx i q 0).val = (q ⟨0, by decide⟩).val :=
  dot_S65536x8_S8x8_S65536x8_1_0_0_1_n_n.rhsIdx_val_of_single rfl i q
/-- On the right operand's column axis it is the output's column. -/
theorem rhs_mm1_1 (i : S65536x8.Idx) (q : dot_S65536x8_S8x8_S65536x8_1_0_0_1_n_n.contr.Idx) :
    (dot_S65536x8_S8x8_S65536x8_1_0_0_1_n_n.rhsIdx i q 1).val = (i 1).val := by
  unfold DotDims.rhsIdx
  rw [dif_neg (show ¬(1 : Fin S8x8.rank) ∈ dot_S65536x8_S8x8_S65536x8_1_0_0_1_n_n.rhsBatch by decide),
    dif_pos (show (1 : Fin S8x8.rank) ∈ dot_S65536x8_S8x8_S65536x8_1_0_0_1_n_n.rhsNonContracting by decide)]
  rfl

/-- The middle layers' product \`[65536, 8] × [8, 8]\` at \`(r, j)\`. -/
theorem mm1_apply (a : FVec Ideal S65536x8 .bf16) (w : FVec Ideal S8x8 .bf16) (r : Fin 65536) (j : Fin 8) :
    matmul dot_S65536x8_S8x8_S65536x8_1_0_0_1_n_n none a w (constant (F := Ideal) S65536x8 .f32 0x00000000#32) (ix2 r j)
      = ∑ k : Fin 8, a (ix2 r k) * w (ix2 k j) := by
  simp only [matmul]
  rw [Ideal.matmul_constant_zero_apply, ← Equiv.sum_comp (contrEquiv1 dot_S65536x8_S8x8_S65536x8_1_0_0_1_n_n 8 rfl rfl).symm]
  refine Finset.sum_congr rfl fun k _ => ?_
  have hk := contrEquiv1_symm_val dot_S65536x8_S8x8_S65536x8_1_0_0_1_n_n 8 rfl rfl k
  have el : dot_S65536x8_S8x8_S65536x8_1_0_0_1_n_n.lhsIdx (ix2 r j) ((contrEquiv1 dot_S65536x8_S8x8_S65536x8_1_0_0_1_n_n 8 rfl rfl).symm k) = ix2 r k :=
    funext fun c => Fin.ext (by
      match c with
      | ⟨0, _⟩ => exact lhs_mm1_0 _ _
      | ⟨1, _⟩ => exact (lhs_mm1_1 _ _).trans hk)
  have er : dot_S65536x8_S8x8_S65536x8_1_0_0_1_n_n.rhsIdx (ix2 r j) ((contrEquiv1 dot_S65536x8_S8x8_S65536x8_1_0_0_1_n_n 8 rfl rfl).symm k) = ix2 k j :=
    funext fun c => Fin.ext (by
      match c with
      | ⟨0, _⟩ => exact (rhs_mm1_0 _ _).trans hk
      | ⟨1, _⟩ => exact rhs_mm1_1 _ _)
  rw [el, er]

/-- On the left operand's row axis the operand index is the output's row. -/
theorem lhs_mm3_0 (i : S65536x1.Idx) (q : dot_S65536x8_S8x1_S65536x1_1_0_0_1_n_n.contr.Idx) :
    (dot_S65536x8_S8x1_S65536x1_1_0_0_1_n_n.lhsIdx i q 0).val = (i 0).val := by
  unfold DotDims.lhsIdx
  rw [dif_neg (show ¬(0 : Fin S65536x8.rank) ∈ dot_S65536x8_S8x1_S65536x1_1_0_0_1_n_n.lhsBatch by decide),
    dif_pos (show (0 : Fin S65536x8.rank) ∈ dot_S65536x8_S8x1_S65536x1_1_0_0_1_n_n.lhsNonContracting by decide)]
  rfl
/-- On the left operand's column axis it is the contraction position. -/
theorem lhs_mm3_1 (i : S65536x1.Idx) (q : dot_S65536x8_S8x1_S65536x1_1_0_0_1_n_n.contr.Idx) :
    (dot_S65536x8_S8x1_S65536x1_1_0_0_1_n_n.lhsIdx i q 1).val = (q ⟨0, by decide⟩).val :=
  dot_S65536x8_S8x1_S65536x1_1_0_0_1_n_n.lhsIdx_val_of_single rfl i q
/-- On the right operand's row axis it is the contraction position. -/
theorem rhs_mm3_0 (i : S65536x1.Idx) (q : dot_S65536x8_S8x1_S65536x1_1_0_0_1_n_n.contr.Idx) :
    (dot_S65536x8_S8x1_S65536x1_1_0_0_1_n_n.rhsIdx i q 0).val = (q ⟨0, by decide⟩).val :=
  dot_S65536x8_S8x1_S65536x1_1_0_0_1_n_n.rhsIdx_val_of_single rfl i q
/-- On the right operand's column axis it is the output's column. -/
theorem rhs_mm3_1 (i : S65536x1.Idx) (q : dot_S65536x8_S8x1_S65536x1_1_0_0_1_n_n.contr.Idx) :
    (dot_S65536x8_S8x1_S65536x1_1_0_0_1_n_n.rhsIdx i q 1).val = (i 1).val := by
  unfold DotDims.rhsIdx
  rw [dif_neg (show ¬(1 : Fin S8x1.rank) ∈ dot_S65536x8_S8x1_S65536x1_1_0_0_1_n_n.rhsBatch by decide),
    dif_pos (show (1 : Fin S8x1.rank) ∈ dot_S65536x8_S8x1_S65536x1_1_0_0_1_n_n.rhsNonContracting by decide)]
  rfl

/-- The last layer's product \`[65536, 8] × [8, 1]\` at \`(r, j)\`. -/
theorem mm3_apply (a : FVec Ideal S65536x8 .bf16) (w : FVec Ideal S8x1 .bf16) (r : Fin 65536) (j : Fin 1) :
    matmul dot_S65536x8_S8x1_S65536x1_1_0_0_1_n_n none a w (constant (F := Ideal) S65536x1 .f32 0x00000000#32) (ix2 r j)
      = ∑ k : Fin 8, a (ix2 r k) * w (ix2 k j) := by
  simp only [matmul]
  rw [Ideal.matmul_constant_zero_apply, ← Equiv.sum_comp (contrEquiv1 dot_S65536x8_S8x1_S65536x1_1_0_0_1_n_n 8 rfl rfl).symm]
  refine Finset.sum_congr rfl fun k _ => ?_
  have hk := contrEquiv1_symm_val dot_S65536x8_S8x1_S65536x1_1_0_0_1_n_n 8 rfl rfl k
  have el : dot_S65536x8_S8x1_S65536x1_1_0_0_1_n_n.lhsIdx (ix2 r j) ((contrEquiv1 dot_S65536x8_S8x1_S65536x1_1_0_0_1_n_n 8 rfl rfl).symm k) = ix2 r k :=
    funext fun c => Fin.ext (by
      match c with
      | ⟨0, _⟩ => exact lhs_mm3_0 _ _
      | ⟨1, _⟩ => exact (lhs_mm3_1 _ _).trans hk)
  have er : dot_S65536x8_S8x1_S65536x1_1_0_0_1_n_n.rhsIdx (ix2 r j) ((contrEquiv1 dot_S65536x8_S8x1_S65536x1_1_0_0_1_n_n 8 rfl rfl).symm k) = ix2 k j :=
    funext fun c => Fin.ext (by
      match c with
      | ⟨0, _⟩ => exact (rhs_mm3_0 _ _).trans hk
      | ⟨1, _⟩ => exact rhs_mm3_1 _ _)
  rw [el, er]

/-! ## Pointwise stages at an index -/

section Pointwise
variable {s : Shape} {φ : FTy}

/-- A reciprocal square root at an index is that of the element … -/
theorem rsqrt_apply (a : FVec Ideal s φ) (i : s.Idx) : rsqrt a i = Ideal.rsqrt (a i) := rfl
/-- … and a hyperbolic tangent the element's. -/
theorem tanh_apply (a : FVec Ideal s φ) (i : s.Idx) : tanh a i = Ideal.tanh (a i) := rfl

end Pointwise

/-! ## The stages -/

/-- The first stage at `(r, j)`: row `r` of the edge features through the first affine map, normalised, scaled, shifted and
    passed through `tanh`, then contracted with column `j` of the second weight matrix (the second bias is added by the
    next stage). -/
theorem pay2_row (x0 : Vec Ideal S65536x6 .bf16) (x1 : Vec Ideal S6x8 .bf16) (x2 x3 x4 : Vec Ideal S8 .f32)
    (x5 : Vec Ideal S8x8 .bf16) (r : Fin 65536) (j : Fin 8) :
    k0_pay2 x0 x1 x2 x3 x4 x5 (ix2 r j)
      = ∑ k : Fin 8, EdgeMlp.normTanh (EdgeMlp.affine (fun k => x0 (ix2 r k)) (fun k j => x1 (ix2 k j)) (fun j => x2 (ix1 j)))
          (fun j => x3 (ix1 j)) (fun j => x4 (ix1 j)) k * x5 (ix2 k j) := by
  unfold k0_pay2
  simp only [shapeCast_self, mm1_apply, truncf_apply, tanh_apply, rsqrt_apply, addf_apply, mulf_apply, subf_apply,
    divf_apply, broadcast_apply, row_apply, broadcastTo_a1_ab_apply, shapeCast_a_a1_apply]
  rw [rowSum_apply, rowSum_apply]
  simp only [mm0_apply, addf_apply, mulf_apply, subf_apply,
    divf_apply, broadcast_apply, row_apply, broadcastTo_a1_ab_apply, shapeCast_a_a1_apply]
  rw [rowSum_apply]
  simp only [mm0_apply, addf_apply, row_apply]
  rfl

/-- The second bias viewed as one row reads its entry `j`. -/
theorem pay3_row (x6 : Vec Ideal S8 .f32) (u : Fin 1) (j : Fin 8) : k0_pay3 x6 (ix2 u j) = x6 (ix1 j) := by
  unfold k0_pay3
  exact shapeCast_a_1a_apply x6 _ u j

/-- The second stage at `(r, j)`, from any pre-bias input `v39` and bias row `v41`: row `r` of `v39` plus the bias, normalised,
    scaled, shifted and passed through `tanh`, then through the third affine map. -/
theorem pay4_row (v39 : FVec Ideal S65536x8 .f32) (v41 : FVec Ideal S1x8 .f32) (v44 v45 : Vec Ideal S8 .f32)
    (v72 : Vec Ideal S8x8 .bf16) (v75 : Vec Ideal S8 .f32) (r : Fin 65536) (j : Fin 8) :
    k0_pay4 v39 v41 v44 v45 v72 v75 (ix2 r j)
      = EdgeMlp.affine (EdgeMlp.normTanh (fun k => v39 (ix2 r k) + v41 (ix2 (0 : Fin 1) k)) (fun k => v44 (ix1 k)) (fun k => v45 (ix1 k)))
          (fun k j => v72 (ix2 k j)) (fun j => v75 (ix1 j)) j := by
  unfold k0_pay4
  simp only [shapeCast_self, mm1_apply, truncf_apply, tanh_apply, rsqrt_apply, addf_apply, mulf_apply, subf_apply,
    divf_apply, broadcast_apply, row_apply, broadcastTo_a1_ab_apply, shapeCast_a_a1_apply, broadcastTo_1b_ab_apply,
    shapeCast_a_1a_apply]
  rw [rowSum_apply, rowSum_apply]
  simp only [addf_apply, mulf_apply, subf_apply,
    divf_apply, broadcast_apply, row_apply, broadcastTo_a1_ab_apply, shapeCast_a_a1_apply, broadcastTo_1b_ab_apply]
  rw [rowSum_apply]
  simp only [addf_apply, broadcastTo_1b_ab_apply]
  rfl

/-- The column of row means of the second stage reads, at row `r`, the mean of that stage's row `r`. -/
theorem pay5_row (v39 : FVec Ideal S65536x8 .f32) (v41 : FVec Ideal S1x8 .f32) (v44 v45 : Vec Ideal S8 .f32)
    (v72 : Vec Ideal S8x8 .bf16) (v75 : Vec Ideal S8 .f32) (r : Fin 65536) (c : Fin 1) :
    k0_pay5 v39 v41 v44 v45 v72 v75 (ix2 r c)
      = EdgeMlp.mean8 (fun k => k0_pay4 v39 v41 v44 v45 v72 v75 (ix2 r k)) := by
  unfold k0_pay5
  simp only [divf_apply, broadcast_apply, shapeCast_a_a1_apply]
  rw [rowSum_apply]
  rfl

/-- The second stage minus its row means reads, at `(r, j)`, the deviation of entry `j` of row `r` from that row's mean. -/
theorem pay6_row (v39 : FVec Ideal S65536x8 .f32) (v41 : FVec Ideal S1x8 .f32) (v44 v45 : Vec Ideal S8 .f32)
    (v72 : Vec Ideal S8x8 .bf16) (v75 : Vec Ideal S8 .f32) (r : Fin 65536) (j : Fin 8) :
    k0_pay6 v39 v41 v44 v45 v72 v75 (ix2 r j)
      = k0_pay4 v39 v41 v44 v45 v72 v75 (ix2 r j) - EdgeMlp.mean8 (fun k => k0_pay4 v39 v41 v44 v45 v72 v75 (ix2 r k)) := by
  unfold k0_pay6
  simp only [subf_apply, broadcastTo_a1_ab_apply]
  rw [pay5_row]

/-- The last stage at row `r`, from any third-layer input `v78`, column of means `v84` and deviations `v86`: the variance
    from the deviations, the normalised row scaled, shifted and passed through `tanh`, contracted with the one column of
    the last weight matrix, plus the last bias. -/
theorem pay1_row (v78 : FVec Ideal S65536x8 .f32) (v79 v80 : Vec Ideal S8 .f32) (v84 : FVec Ideal S65536x1 .f32)
    (v86 : FVec Ideal S65536x8 .f32) (v107 : Vec Ideal S8x1 .bf16) (v110 : Vec Ideal S1 .f32) (r : Fin 65536) :
    k0_pay1 v78 v79 v80 v84 v86 v107 v110 (ix1 r)
      = (∑ k : Fin 8, Ideal.tanh ((v78 (ix2 r k) - v84 (ix2 r (0 : Fin 1)))
            * Ideal.rsqrt (Ideal.div (∑ k' : Fin 8, v86 (ix2 r k') * v86 (ix2 r k')) EdgeMlp.eight + EdgeMlp.eps)
            * v79 (ix1 k) + v80 (ix1 k)) * v107 (ix2 k (0 : Fin 1))) + v110 (ix1 (0 : Fin 1)) := by
  unfold k0_pay1
  simp only [shapeCast_a1_a_apply, shapeCast_self, mm3_apply, truncf_apply, tanh_apply, rsqrt_apply, addf_apply, mulf_apply,
    subf_apply, divf_apply, broadcast_apply, row_apply, broadcastTo_a1_ab_apply, shapeCast_a_a1_apply]
  rw [rowSum_apply]
  rfl

/-! ## The composition -/

/-- THE BODY'S RESULT AT ROW `r`: the specification's per-edge function of row `r` of the edge features and the
    parameter arrays. -/
theorem out_row (x0 : Vec Ideal S65536x6 .bf16) (x1 : Vec Ideal S6x8 .bf16) (x2 x3 x4 : Vec Ideal S8 .f32) (x5 : Vec Ideal S8x8 .bf16) (x6 x7 x8 : Vec Ideal S8 .f32) (x9 : Vec Ideal S8x8 .bf16) (x10 x11 x12 : Vec Ideal S8 .f32) (x13 : Vec Ideal S8x1 .bf16) (x14 : Vec Ideal S1 .f32) (r : Fin 65536) :
    k0_pay1 (k0_pay4 (k0_pay2 x0 x1 x2 x3 x4 x5) (k0_pay3 x6) x7 x8 x9 x10) x11 x12 (k0_pay5 (k0_pay2 x0 x1 x2 x3 x4 x5) (k0_pay3 x6) x7 x8 x9 x10) (k0_pay6 (k0_pay2 x0 x1 x2 x3 x4 x5) (k0_pay3 x6) x7 x8 x9 x10) x13 x14 (ix1 r)
      = EdgeMlp.mlpRow (fun k => x0 (ix2 r k)) (fun k j => x1 (ix2 k j)) (fun j => x2 (ix1 j)) (fun j => x3 (ix1 j)) (fun j => x4 (ix1 j)) (fun k j => x5 (ix2 k j)) (fun j => x6 (ix1 j)) (fun j => x7 (ix1 j)) (fun j => x8 (ix1 j)) (fun k j => x9 (ix2 k j)) (fun j => x10 (ix1 j)) (fun j => x11 (ix1 j)) (fun j => x12 (ix1 j)) (fun k j => x13 (ix2 k j)) (fun j => x14 (ix1 j)) := by
  rw [pay1_row]
  simp only [pay5_row, pay6_row, pay4_row, pay3_row, pay2_row]
  rfl

end Cert.KernelIdeal.PayRows

end
-- ==== Proof.KValue.lean ====
/-
  The kernel program's result is the per-edge function of the specification.

  The region runs over 62 blocks of 65536 edges.  At block `t` its body reads rows `65536 t … 65536 t + 65535`
  of the padded edge features and the whole of every parameter array, and stores, for each of its rows, the
  edge function of that row; the 62 stored blocks tile the output, so the output array ends holding, at every
  entry `i`, the edge function of row `i` of the padded features.  The host line after the region keeps the
  entries below 4000000, where the padded features are the edge features themselves.
-/
import proofs.«126648_j24524263260404_1_alg».proof.Proof.KHost
import proofs.«126648_j24524263260404_1_alg».proof.Proof.PayRows
import proofs.«126648_j24524263260404_1_alg».proof.Proof.Spec
import Idealize.ShloMosaic.Lib.Pipeline.Value
import Idealize.ShloMosaic.Lib.ValueIdx

noncomputable section

namespace Cert.KernelIdeal.KValue

open Cert.KernelIdeal Cert.KernelIdeal.Gen Idealize.ShloMosaic Idealize.ShloMosaic.TcCoe Idealize.ShloMosaic.ValueIdx
open Idealize.SL.Sem
open Idealize.ShloMosaic.Pipeline (Dat)

variable (m : (ℓ : Loc nD τ sig) → Buf (Elt Ideal) ℓ) (ρ : Dev nD → PrngReg)

theorem hz1 : (![0] : Fin 1 → Nat) = fun _ => 0 := funext fun a => by fin_cases a <;> rfl
theorem hz2 : (![0, 0] : Fin 2 → Nat) = fun _ => 0 := funext fun a => by fin_cases a <;> rfl

/-! ## The index maps, decided over the 62 points -/

/-- The feature window and the output window move one block per point along the edge axis. -/
theorem idx_moving : ∀ t : Fin cfg0.N, win0_0.index t (0 : Fin 2) = t.val ∧ win0_0.index t (1 : Fin 2) = 0
    ∧ win0_15.index t (0 : Fin 1) = t.val :=
  (by decide +kernel : ∀ t : Fin grid0.N, _)

/-- Every parameter window stays at block zero. -/
theorem idx_w1 : ∀ (t : Fin cfg0.N) (a : Fin 2), win0_1.index t a = 0 := (by decide +kernel : ∀ (t : Fin grid0.N) (a : Fin 2), _)
theorem idx_w2 : ∀ (t : Fin cfg0.N) (a : Fin 1), win0_2.index t a = 0 := (by decide +kernel : ∀ (t : Fin grid0.N) (a : Fin 1), _)
theorem idx_w3 : ∀ (t : Fin cfg0.N) (a : Fin 1), win0_3.index t a = 0 := (by decide +kernel : ∀ (t : Fin grid0.N) (a : Fin 1), _)
theorem idx_w4 : ∀ (t : Fin cfg0.N) (a : Fin 1), win0_4.index t a = 0 := (by decide +kernel : ∀ (t : Fin grid0.N) (a : Fin 1), _)
theorem idx_w5 : ∀ (t : Fin cfg0.N) (a : Fin 2), win0_5.index t a = 0 := (by decide +kernel : ∀ (t : Fin grid0.N) (a : Fin 2), _)
theorem idx_w6 : ∀ (t : Fin cfg0.N) (a : Fin 1), win0_6.index t a = 0 := (by decide +kernel : ∀ (t : Fin grid0.N) (a : Fin 1), _)
theorem idx_w7 : ∀ (t : Fin cfg0.N) (a : Fin 1), win0_7.index t a = 0 := (by decide +kernel : ∀ (t : Fin grid0.N) (a : Fin 1), _)
theorem idx_w8 : ∀ (t : Fin cfg0.N) (a : Fin 1), win0_8.index t a = 0 := (by decide +kernel : ∀ (t : Fin grid0.N) (a : Fin 1), _)
theorem idx_w9 : ∀ (t : Fin cfg0.N) (a : Fin 2), win0_9.index t a = 0 := (by decide +kernel : ∀ (t : Fin grid0.N) (a : Fin 2), _)
theorem idx_w10 : ∀ (t : Fin cfg0.N) (a : Fin 1), win0_10.index t a = 0 := (by decide +kernel : ∀ (t : Fin grid0.N) (a : Fin 1), _)
theorem idx_w11 : ∀ (t : Fin cfg0.N) (a : Fin 1), win0_11.index t a = 0 := (by decide +kernel : ∀ (t : Fin grid0.N) (a : Fin 1), _)
theorem idx_w12 : ∀ (t : Fin cfg0.N) (a : Fin 1), win0_12.index t a = 0 := (by decide +kernel : ∀ (t : Fin grid0.N) (a : Fin 1), _)
theorem idx_w13 : ∀ (t : Fin cfg0.N) (a : Fin 2), win0_13.index t a = 0 := (by decide +kernel : ∀ (t : Fin grid0.N) (a : Fin 2), _)
theorem idx_w14 : ∀ (t : Fin cfg0.N) (a : Fin 1), win0_14.index t a = 0 := (by decide +kernel : ∀ (t : Fin grid0.N) (a : Fin 1), _)

/-! ## The blocks the body reads -/

/-- Row `r` of the feature window's block at point `t` is row `65536 t + r` of the padded features. -/
theorem blk0_apply (c : Dev nD) (t : Fin cfg0.N) (r : Fin 65536) (k : Fin 6) (i' : Fin 4063232)
    (hi : i'.val = t.val * 65536 + r.val) :
    (iblk m c 0 t : Vec Ideal S65536x6 .bf16) (ix2 r k) = (V m c main_v20 : S4063232x6.Idx → EReal) (ix2 i' k) := by
  obtain ⟨e0, e1, -⟩ := idx_moving t
  unfold iblk
  rw [View.read_apply]
  show V m c main_v20 _ = V m c main_v20 _
  congr 1
  funext a
  apply Fin.ext
  match a with
  | ⟨0, _⟩ => show win0_0.index t (0 : Fin 2) * 65536 + 1 * r.val = i'.val; rw [e0, hi]; omega
  | ⟨1, _⟩ => show win0_0.index t (1 : Fin 2) * 6 + 1 * k.val = k.val; rw [e1]; omega

set_option hygiene false in
/-- Closes `block y = array y` for a window whose block index is zero on every axis (`h`): the block's
    embedding is then the identity, coordinate by coordinate. -/
local macro "whole_block " ref:term " , " h:term : tactic =>
  `(tactic| (unfold iblk; rw [View.read_apply]; show V m c $ref _ = V m c $ref _; congr 1; funext a; apply Fin.ext;
             show _ * _ + 1 * _ = _; rw [$h t a, Nat.zero_mul, Nat.zero_add, Nat.one_mul]))

theorem blk1_apply (c : Dev nD) (t : Fin cfg0.N) (y : S6x8.Idx) :
    (iblk m c 1 t : Vec Ideal S6x8 .bf16) y = (V m c main_v21 : S6x8.Idx → EReal) y := by whole_block main_v21 , idx_w1
theorem blk2_apply (c : Dev nD) (t : Fin cfg0.N) (y : S8.Idx) :
    (iblk m c 2 t : Vec Ideal S8 .f32) y = (V m c main_arg3 : S8.Idx → EReal) y := by whole_block main_arg3 , idx_w2
theorem blk3_apply (c : Dev nD) (t : Fin cfg0.N) (y : S8.Idx) :
    (iblk m c 3 t : Vec Ideal S8 .f32) y = (V m c main_arg4 : S8.Idx → EReal) y := by whole_block main_arg4 , idx_w3
theorem blk4_apply (c : Dev nD) (t : Fin cfg0.N) (y : S8.Idx) :
    (iblk m c 4 t : Vec Ideal S8 .f32) y = (V m c main_arg5 : S8.Idx → EReal) y := by whole_block main_arg5 , idx_w4
theorem blk5_apply (c : Dev nD) (t : Fin cfg0.N) (y : S8x8.Idx) :
    (iblk m c 5 t : Vec Ideal S8x8 .bf16) y = (V m c main_v22 : S8x8.Idx → EReal) y := by whole_block main_v22 , idx_w5
theorem blk6_apply (c : Dev nD) (t : Fin cfg0.N) (y : S8.Idx) :
    (iblk m c 6 t : Vec Ideal S8 .f32) y = (V m c main_arg7 : S8.Idx → EReal) y := by whole_block main_arg7 , idx_w6
theorem blk7_apply (c : Dev nD) (t : Fin cfg0.N) (y : S8.Idx) :
    (iblk m c 7 t : Vec Ideal S8 .f32) y = (V m c main_arg8 : S8.Idx → EReal) y := by whole_block main_arg8 , idx_w7
theorem blk8_apply (c : Dev nD) (t : Fin cfg0.N) (y : S8.Idx) :
    (iblk m c 8 t : Vec Ideal S8 .f32) y = (V m c main_arg9 : S8.Idx → EReal) y := by whole_block main_arg9 , idx_w8
theorem blk9_apply (c : Dev nD) (t : Fin cfg0.N) (y : S8x8.Idx) :
    (iblk m c 9 t : Vec Ideal S8x8 .bf16) y = (V m c main_v23 : S8x8.Idx → EReal) y := by whole_block main_v23 , idx_w9
theorem blk10_apply (c : Dev nD) (t : Fin cfg0.N) (y : S8.Idx) :
    (iblk m c 10 t : Vec Ideal S8 .f32) y = (V m c main_arg11 : S8.Idx → EReal) y := by whole_block main_arg11 , idx_w10
theorem blk11_apply (c : Dev nD) (t : Fin cfg0.N) (y : S8.Idx) :
    (iblk m c 11 t : Vec Ideal S8 .f32) y = (V m c main_arg12 : S8.Idx → EReal) y := by whole_block main_arg12 , idx_w11
theorem blk12_apply (c : Dev nD) (t : Fin cfg0.N) (y : S8.Idx) :
    (iblk m c 12 t : Vec Ideal S8 .f32) y = (V m c main_arg13 : S8.Idx → EReal) y := by whole_block main_arg13 , idx_w12
theorem blk13_apply (c : Dev nD) (t : Fin cfg0.N) (y : S8x1.Idx) :
    (iblk m c 13 t : Vec Ideal S8x1 .bf16) y = (V m c main_v24 : S8x1.Idx → EReal) y := by whole_block main_v24 , idx_w13
theorem blk14_apply (c : Dev nD) (t : Fin cfg0.N) (y : S1.Idx) :
    (iblk m c 14 t : Vec Ideal S1 .f32) y = (V m c main_arg15 : S1.Idx → EReal) y := by whole_block main_arg15 , idx_w14

/-! ## The output array after the run -/

/-- The edge function of row `i` of the padded features, over the arrays the region finds. -/
def outRow (c : Dev nD) (i : Fin 4063232) : EReal :=
  EdgeMlp.mlpRow (fun k => (V m c main_v20 : S4063232x6.Idx → EReal) (ix2 i k))
    (fun k j => (V m c main_v21 : S6x8.Idx → EReal) (ix2 k j)) (fun j => (V m c main_arg3 : S8.Idx → EReal) (ix1 j))
    (fun j => (V m c main_arg4 : S8.Idx → EReal) (ix1 j)) (fun j => (V m c main_arg5 : S8.Idx → EReal) (ix1 j))
    (fun k j => (V m c main_v22 : S8x8.Idx → EReal) (ix2 k j)) (fun j => (V m c main_arg7 : S8.Idx → EReal) (ix1 j))
    (fun j => (V m c main_arg8 : S8.Idx → EReal) (ix1 j)) (fun j => (V m c main_arg9 : S8.Idx → EReal) (ix1 j))
    (fun k j => (V m c main_v23 : S8x8.Idx → EReal) (ix2 k j)) (fun j => (V m c main_arg11 : S8.Idx → EReal) (ix1 j))
    (fun j => (V m c main_arg12 : S8.Idx → EReal) (ix1 j)) (fun j => (V m c main_arg13 : S8.Idx → EReal) (ix1 j))
    (fun k j => (V m c main_v24 : S8x1.Idx → EReal) (ix2 k j)) (fun j => (V m c main_arg15 : S1.Idx → EReal) (ix1 j))

/-- The region's output as one function: entry `i` is `outRow` at `i`. -/
def outFn (c : Dev nD) : S4063232.Idx → EReal := fun i => outRow m c (i 0)

/-- What point `t` writes back is block `t` of `outFn`: the body's store is the edge function of each of its
    rows, the rows being rows `65536 t + r` of the padded features and the parameters whole. -/
theorem flushed_eq (c : Dev nD) (t : Fin cfg0.N) :
    (dats m 0 c).flushed 15 t = ((cfg0.win 15).blk t).view.read (Elt Ideal) (outFn m c) := by
  show (cfg0.win 15).cut (grid0.coords t) ((dats m 0 c).after 15 t) = _
  rw [after0_15]
  unfold out0_15
  rw [View.canon_unit_zero hz1]
  simp only [View.ld_unit_zero (S := S65536x6) hz2, View.ld_unit_zero (S := S6x8) hz2, View.ld_unit_zero (S := S8) hz1,
    View.ld_unit_zero (S := S8x8) hz2, View.ld_unit_zero (S := S8x1) hz2, View.ld_unit_zero (S := S1) hz1]
  funext y
  obtain ⟨r, rfl⟩ : ∃ r : Fin 65536, y = ix1 r := ⟨y 0, eq_ix1 y⟩
  obtain ⟨-, -, e15⟩ := idx_moving t
  have ht : t.val < 62 := by have h := t.isLt; have hN : cfg0.N = 62 := N_0; omega
  obtain ⟨i', hi'⟩ : ∃ i' : Fin 4063232, i'.val = t.val * 65536 + r.val := ⟨⟨t.val * 65536 + r.val, by omega⟩, rfl⟩
  have hemb : ((cfg0.win 15).blk t).view.emb (ix1 r) = (ix1 i' : S4063232.Idx) := by
    funext a
    apply Fin.ext
    match a with
    | ⟨0, _⟩ => show win0_15.index t (0 : Fin 1) * 65536 + 1 * r.val = i'.val; rw [e15, hi']; omega
  refine (PayRows.out_row (iblk m c 0 t) (iblk m c 1 t) (iblk m c 2 t) (iblk m c 3 t) (iblk m c 4 t) (iblk m c 5 t)
    (iblk m c 6 t) (iblk m c 7 t) (iblk m c 8 t) (iblk m c 9 t) (iblk m c 10 t) (iblk m c 11 t) (iblk m c 12 t)
    (iblk m c 13 t) (iblk m c 14 t) r).trans ?_
  show _ = outFn m c (((cfg0.win 15).blk t).view.emb (ix1 r))
  rw [hemb]
  show _ = outRow m c i'
  unfold outRow
  simp only [blk0_apply m c t r _ i' hi', blk1_apply m c t, blk2_apply m c t, blk3_apply m c t, blk4_apply m c t,
    blk5_apply m c t, blk6_apply m c t, blk7_apply m c t, blk8_apply m c t, blk9_apply m c t, blk10_apply m c t,
    blk11_apply m c t, blk12_apply m c t, blk13_apply m c t, blk14_apply m c t]

/-- An entry of the output is in point `t`'s block iff it lies in rows `65536 t … 65536 t + 65535`. -/
theorem mem_blk (t : Fin cfg0.N) (i : S4063232.Idx) :
    i ∈ ((cfg0.win 15).blk t).view.set ↔ ∀ a : Fin 1, win0_15.index t a * S65536.size a ≤ (i a).val
      ∧ (i a).val < win0_15.index t a * S65536.size a + S65536.size a := by
  show i ∈ ((View.whole main_v25).slice (win0_15.rect t)).set ↔ _
  rw [View.set_slice_whole, Rect.mem_set_unit]
  exact Iff.rfl

/-- The 62 blocks tile the output, so it ends holding `outFn`. -/
theorem final (c : Dev nD) : (dats m 0 c).arrAt 15 cfg0.N = outFn m c :=
  (dats m 0 c).arrAt_eq_of_cover 15 (outFn m c) (fun t _ => flushed_eq m c t) fun i => by
    have hi : (i 0).val < 4063232 := (i 0).isLt
    have hN : cfg0.N = 62 := N_0
    refine ⟨⟨(i 0).val / 65536, by omega⟩, flush0_15 _, ?_⟩
    rw [mem_blk]
    obtain ⟨-, -, e15⟩ := idx_moving ⟨(i 0).val / 65536, by omega⟩
    intro a
    match a with
    | ⟨0, _⟩ =>
      show win0_15.index _ (0 : Fin 1) * 65536 ≤ (i 0).val ∧ (i 0).val < win0_15.index _ (0 : Fin 1) * 65536 + 65536
      rw [e15]
      show (i 0).val / 65536 * 65536 ≤ (i 0).val ∧ (i 0).val < (i 0).val / 65536 * 65536 + 65536
      omega

/-! ## The program's result -/

/-- The result array is the specification's `G` of the edge features and the parameter arrays as launched. -/
theorem result_eq (c : Dev nD) :
    (Pipeline.afterTail₀ cfgs (dats m) 0 (V0 m) [hostOps1] c main_v26 : S4000000.Idx → EReal)
      = EdgeMlp.G (Feat.edgeFeat (m ((c : Thread nD τ).loc main_arg0)) (m ((c : Thread nD τ).loc main_arg1)))
          (m ((c : Thread nD τ).loc main_arg2)) (m ((c : Thread nD τ).loc main_arg3)) (m ((c : Thread nD τ).loc main_arg4)) (m ((c : Thread nD τ).loc main_arg5))
          (m ((c : Thread nD τ).loc main_arg6)) (m ((c : Thread nD τ).loc main_arg7)) (m ((c : Thread nD τ).loc main_arg8)) (m ((c : Thread nD τ).loc main_arg9))
          (m ((c : Thread nD τ).loc main_arg10)) (m ((c : Thread nD τ).loc main_arg11)) (m ((c : Thread nD τ).loc main_arg12)) (m ((c : Thread nD τ).loc main_arg13))
          (m ((c : Thread nD τ).loc main_arg14)) (m ((c : Thread nD τ).loc main_arg15)) := by
  funext i
  obtain ⟨i0, rfl⟩ : ∃ i0 : Fin 4000000, i = ix1 i0 := ⟨i 0, eq_ix1 i⟩
  obtain ⟨i', hi'⟩ : ∃ i' : Fin 4063232, i'.val = i0.val := ⟨⟨i0.val, by omega⟩, rfl⟩
  rw [KHost.tail_v26_apply m c i0 i' hi', final]
  show outRow m c i' = _
  unfold outRow EdgeMlp.G
  simp only [KHost.V_v20_row m c i0 _ i' hi', KHost.V_v21, KHost.V_v22, KHost.V_v23, KHost.V_v24, V_main_arg3, V_main_arg4,
    V_main_arg5, V_main_arg7, V_main_arg8, V_main_arg9, V_main_arg11, V_main_arg12, V_main_arg13, V_main_arg15]
  rfl

/-- The run, read: every execution ends with the result array at `G` of the launched arguments, and the
    arguments unchanged. -/
theorem run : θ_run defs (onTc (τ := τ) (main (F := Ideal))) ⟨m, fun _ => 0, ρ⟩ fun r => ∀ c : Dev nD,
      r.2.mem ((c.tc : Thread nD τ).loc main_v26)
        = EdgeMlp.G (Feat.edgeFeat (m ((c.tc : Thread nD τ).loc main_arg0)) (m ((c.tc : Thread nD τ).loc main_arg1)))
            (m ((c.tc : Thread nD τ).loc main_arg2)) (m ((c.tc : Thread nD τ).loc main_arg3)) (m ((c.tc : Thread nD τ).loc main_arg4)) (m ((c.tc : Thread nD τ).loc main_arg5))
            (m ((c.tc : Thread nD τ).loc main_arg6)) (m ((c.tc : Thread nD τ).loc main_arg7)) (m ((c.tc : Thread nD τ).loc main_arg8)) (m ((c.tc : Thread nD τ).loc main_arg9))
            (m ((c.tc : Thread nD τ).loc main_arg10)) (m ((c.tc : Thread nD τ).loc main_arg11)) (m ((c.tc : Thread nD τ).loc main_arg12)) (m ((c.tc : Thread nD τ).loc main_arg13))
            (m ((c.tc : Thread nD τ).loc main_arg14)) (m ((c.tc : Thread nD τ).loc main_arg15))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15) :=
  (θ_run defs _ _).mono (fun _ h c => ⟨((h c).2 main_v26 (Pipeline.mem_restRefs_of main_v26 (by decide) (by decide))).trans (result_eq m c),
      (((h c).2 main_arg0 (Pipeline.mem_restRefs_of main_arg0 (by decide) (by decide))).trans (W_main_arg0 m (dats m) c)),
      (((h c).2 main_arg1 (Pipeline.mem_restRefs_of main_arg1 (by decide) (by decide))).trans (W_main_arg1 m (dats m) c)),
      (((h c).2 main_arg2 (Pipeline.mem_restRefs_of main_arg2 (by decide) (by decide))).trans (W_main_arg2 m (dats m) c)),
      ((h c).1 2).trans (((dats m 0 c).arrAt_in 2 rfl _).trans ((A_eq m c 2).trans (V_main_arg3 m c))),
      ((h c).1 3).trans (((dats m 0 c).arrAt_in 3 rfl _).trans ((A_eq m c 3).trans (V_main_arg4 m c))),
      ((h c).1 4).trans (((dats m 0 c).arrAt_in 4 rfl _).trans ((A_eq m c 4).trans (V_main_arg5 m c))),
      (((h c).2 main_arg6 (Pipeline.mem_restRefs_of main_arg6 (by decide) (by decide))).trans (W_main_arg6 m (dats m) c)),
      ((h c).1 6).trans (((dats m 0 c).arrAt_in 6 rfl _).trans ((A_eq m c 6).trans (V_main_arg7 m c))),
      ((h c).1 7).trans (((dats m 0 c).arrAt_in 7 rfl _).trans ((A_eq m c 7).trans (V_main_arg8 m c))),
      ((h c).1 8).trans (((dats m 0 c).arrAt_in 8 rfl _).trans ((A_eq m c 8).trans (V_main_arg9 m c))),
      (((h c).2 main_arg10 (Pipeline.mem_restRefs_of main_arg10 (by decide) (by decide))).trans (W_main_arg10 m (dats m) c)),
      ((h c).1 10).trans (((dats m 0 c).arrAt_in 10 rfl _).trans ((A_eq m c 10).trans (V_main_arg11 m c))),
      ((h c).1 11).trans (((dats m 0 c).arrAt_in 11 rfl _).trans ((A_eq m c 11).trans (V_main_arg12 m c))),
      ((h c).1 12).trans (((dats m 0 c).arrAt_in 12 rfl _).trans ((A_eq m c 12).trans (V_main_arg13 m c))),
      (((h c).2 main_arg14 (Pipeline.mem_restRefs_of main_arg14 (by decide) (by decide))).trans (W_main_arg14 m (dats m) c)),
      ((h c).1 14).trans (((dats m 0 c).arrAt_in 14 rfl _).trans ((A_eq m c 14).trans (V_main_arg15 m c)))⟩)
    (run_main m ρ)

end Cert.KernelIdeal.KValue

end
-- ==== Proof.FeatR.lean ====
/-
  The edge features both programs feed their first layer: for edge `i`, the three coordinates of its start node
  followed by the three of its end node.  A node number is read from the edge list's row (row 0 the start nodes,
  row 1 the end nodes), a negative one is moved up by the node count once, and the node table's row at that
  number is taken by the host gather; the two gathered blocks are joined along the feature axis.
-/
import proofs.«126648_j24524263260404_1_alg».proof.Proof.Gen.ReferenceIdeal
import Idealize.ShloMosaic.PureOps.Ideal

noncomputable section

namespace Cert.ReferenceIdeal.Feat

open Cert.ReferenceIdeal Cert.ReferenceIdeal.Gen Idealize.ShloMosaic Idealize.ShloMosaic.TcCoe

/-- The start node of every edge: row 0 of the edge list as a vector. -/
def startNodes (ei : IVec S2x4000000 32) : IVec S4000000 32 :=
  shapeCast S4000000 (extractStridedSlice S1x4000000 ![0, 0] ei slices_S2x4000000_S1x4000000_0_0) shapeCasts_S1x4000000_S4000000

/-- The end node of every edge: row 1 of the edge list as a vector. -/
def endNodes (ei : IVec S2x4000000 32) : IVec S4000000 32 :=
  shapeCast S4000000 (extractStridedSlice S1x4000000 ![1, 0] ei slices_S2x4000000_S1x4000000_1_0) shapeCasts_S1x4000000_S4000000

/-- Node numbers as the gather's start indices: a negative number has the node count added, and each number
    becomes a one-entry index vector. -/
def wrapped (v : IVec S4000000 32) : IVec S4000000x1 32 :=
  broadcastInDim S4000000x1 ![0] bcast_S4000000_S4000000x1_0
    (select (cmpi .slt v (broadcastInDim S4000000 ![] bcast_S_S4000000 (constantI S_ 32 0#32)))
      (addi v (broadcastInDim S4000000 ![] bcast_S_S4000000 (constantI S_ 32 100000#32))) v)

/-- The edge features: the start nodes' rows of `x` beside the end nodes' rows. -/
def edgeFeat (x : FVec Ideal S100000x3 .f32) (ei : IVec S2x4000000 32) : FVec Ideal S4000000x6 .f32 :=
  concatenate S4000000x6 1
    [⟨S4000000x3, Host.gather gather_S100000x3_S4000000x1_S4000000x3_1_0_n_n_0_1_13 x (wrapped (startNodes ei))⟩,
     ⟨S4000000x3, Host.gather gather_S100000x3_S4000000x1_S4000000x3_1_0_n_n_0_1_13 x (wrapped (endNodes ei))⟩]
    concatenates_S4000000x3_S4000000x3_S4000000x6_d1

end Cert.ReferenceIdeal.Feat

end
-- ==== Proof.RefValue.lean ====
/-
  The reference program's result is the per-edge function of the specification: edge `i`'s output is the
  four-layer map applied to row `i` of the edge features.

  Each stage of the program is read at an index as a function of one ROW of its operands: a product with a weight
  matrix is the sum over the contracted entry, a row sum is the sum of the row's eight entries (the initial
  value being zero), a broadcast along the feature axis repeats the row's one value, and every other
  operation acts entry by entry. The three normalised layers have the same text, so one lemma serves them.
-/
import proofs.«126648_j24524263260404_1_alg».proof.Proof.Gen.ReferenceIdeal.Run
import proofs.«126648_j24524263260404_1_alg».proof.Proof.FeatR
import proofs.«126648_j24524263260404_1_alg».proof.Proof.Spec
import Idealize.ShloMosaic.PureOps.Ideal.Laws
import Idealize.ShloMosaic.Lib.ValueIdx
import Idealize.ShloMosaic.Lib.Pipeline.Value
import Idealize.ShloMosaic.Lib.StackMember

noncomputable section

namespace Cert.ReferenceIdeal.RefValue

open Cert.ReferenceIdeal Cert.ReferenceIdeal.Gen Cert.ReferenceIdeal.Value Idealize.ShloMosaic Idealize.ShloMosaic.TcCoe
  Idealize.ShloMosaic.ValueIdx Idealize.SL.Sem Idealize.ShloMosaic.StableHlo

/-! ## The three weight products are plain matrix products -/

theorem dot6_eq : dot_S4000000x6_S6x8_S4000000x8_1_0_0_1_n_n = DotDims.plain 4000000 6 8 := rfl
theorem dot8_eq : dot_S4000000x8_S8x8_S4000000x8_1_0_0_1_n_n = DotDims.plain 4000000 8 8 := rfl
theorem dot1_eq : dot_S4000000x8_S8x1_S4000000x1_1_0_0_1_n_n = DotDims.plain 4000000 8 1 := rfl

/-- The first layer's product at `(i, j)`: the sum over the six features. -/
theorem dot6_apply (A : FVec Ideal S4000000x6 .f32) (W : FVec Ideal S6x8 .f32) (i : Fin 4000000) (j : Fin 8) :
    Host.dotGeneral (F := Ideal) dot_S4000000x6_S6x8_S4000000x8_1_0_0_1_n_n none A W (ix2 i j)
      = ∑ k : Fin 6, A (ix2 i k) * W (ix2 k j) := by
  rw [dot6_eq]; exact StackMember.dotGeneral_plain_apply none A W i j

/-- A middle layer's product at `(i, j)`: the sum over the eight entries. -/
theorem dot8_apply (A : FVec Ideal S4000000x8 .f32) (W : FVec Ideal S8x8 .f32) (i : Fin 4000000) (j : Fin 8) :
    Host.dotGeneral (F := Ideal) dot_S4000000x8_S8x8_S4000000x8_1_0_0_1_n_n none A W (ix2 i j)
      = ∑ k : Fin 8, A (ix2 i k) * W (ix2 k j) := by
  rw [dot8_eq]; exact StackMember.dotGeneral_plain_apply none A W i j

/-- The last layer's product at `(i, 0)`: the sum over the eight entries. -/
theorem dot1_apply (A : FVec Ideal S4000000x8 .f32) (W : FVec Ideal S8x1 .f32) (i : Fin 4000000) (j : Fin 1) :
    Host.dotGeneral (F := Ideal) dot_S4000000x8_S8x1_S4000000x1_1_0_0_1_n_n none A W (ix2 i j)
      = ∑ k : Fin 8, A (ix2 i k) * W (ix2 k j) := by
  rw [dot1_eq]; exact StackMember.dotGeneral_plain_apply none A W i j

/-! ## A row sum, the broadcasts and the final cast, read at an index -/

theorem reduces8 : S4000000x8.Reduces [1] S4000000 := by decide

/-- The row sum at `i`: the sum of row `i`'s eight entries (the initial value is the zero word). -/
theorem rowSum_apply (v : FVec Ideal S4000000x8 .f32) (i : Fin 4000000) :
    Host.reduceAdd (F := Ideal) v (constant (F := Ideal) S_ .f32 0x00000000#32) reducesTo_S4000000x8_S4000000_d1 h_S_ (ix1 i)
      = ∑ k : Fin 8, v (ix2 i k) := by
  unfold Host.reduceAdd
  rw [Ideal.hostReduceAdd_def]
  refine (Ideal.hostReduceAdd_single reducesTo_S4000000x8_S4000000_d1 reduces8 v _ (ix1 i)).trans ?_
  rw [constant_apply, Ideal.ofBits_zero_f32, zero_add]
  refine Finset.sum_congr rfl fun k _ => congrArg v ?_
  funext a; apply Fin.ext
  match a with
  | ⟨0, _⟩ => rfl
  | ⟨1, _⟩ => rfl

section Broadcasts
variable {α : Type}

/-- A vector as a one-entry-wide column: entry `(i, 0)` is entry `i`. -/
theorem col_apply (v : S4000000.Idx → α) (i : Fin 4000000) (z : Fin 1) :
    broadcastInDim S4000000x1 ![0] bcast_S4000000_S4000000x1_0 v (ix2 i z) = v (ix1 i) :=
  broadcastInDim_apply _ _ v (ix2 i z) (ix1 i) fun a => match a with
    | ⟨0, _⟩ => by
      show i.val = if (4000000 : ℕ) = 1 then 0 else i.val
      rw [if_neg (by decide)]

/-- A scalar spread over the column: its one value everywhere. -/
theorem scalarCol_apply (c : S_.Idx → α) (i : Fin 4000000) (z : Fin 1) :
    broadcastInDim S4000000x1 ![] bcast_S_S4000000x1 c (ix2 i z) = c ix0 :=
  broadcastInDim_apply _ _ c (ix2 i z) ix0 fun a => a.elim0

/-- A column spread along the feature axis: row `i`'s one value at every `j`. -/
theorem colWide_apply (v : S4000000x1.Idx → α) (i : Fin 4000000) (j : Fin 8) :
    broadcastInDim S4000000x8 ![0, 1] bcast_S4000000x1_S4000000x8_0_1 v (ix2 i j) = v (ix2 i 0) :=
  broadcastInDim_apply _ _ v (ix2 i j) (ix2 i 0) fun a => match a with
    | ⟨0, _⟩ => by
      show i.val = if (4000000 : ℕ) = 1 then 0 else i.val
      rw [if_neg (by decide)]
    | ⟨1, _⟩ => rfl

/-- A parameter vector of eight entries repeated on every row: entry `j`. -/
theorem rowParam_apply (g : S8.Idx → α) (i : Fin 4000000) (j : Fin 8) :
    broadcastInDim S4000000x8 ![0, 1] bcast_S1x8_S4000000x8_0_1 (broadcastInDim S1x8 ![1] bcast_S8_S1x8_1 g) (ix2 i j)
      = g (ix1 j) := by
  refine (broadcastInDim_apply _ _ _ (ix2 i j) (ix2 (0 : Fin 1) j) fun a => match a with
    | ⟨0, _⟩ => rfl
    | ⟨1, _⟩ => by
      show j.val = if (8 : ℕ) = 1 then 0 else j.val
      rw [if_neg (by decide)]).trans ?_
  exact broadcastInDim_apply _ _ g (ix2 (0 : Fin 1) j) (ix1 j) fun a => match a with
    | ⟨0, _⟩ => by
      show j.val = if (8 : ℕ) = 1 then 0 else j.val
      rw [if_neg (by decide)]

/-- The last layer's one bias repeated on every row. -/
theorem rowParam1_apply (b : S1.Idx → α) (i : Fin 4000000) (z : Fin 1) :
    broadcastInDim S4000000x1 ![0, 1] bcast_S1x1_S4000000x1_0_1 (broadcastInDim S1x1 ![1] bcast_S1_S1x1_1 b) (ix2 i z)
      = b (ix1 0) := by
  refine (broadcastInDim_apply _ _ _ (ix2 i z) (ix2 (0 : Fin 1) (0 : Fin 1)) fun a => match a with
    | ⟨0, _⟩ => rfl
    | ⟨1, _⟩ => rfl).trans ?_
  exact broadcastInDim_apply _ _ b (ix2 (0 : Fin 1) (0 : Fin 1)) (ix1 0) fun a => match a with
    | ⟨0, _⟩ => rfl

/-- The one-entry-wide result read as a vector: entry `i` is entry `(i, 0)`. -/
theorem flat_apply (x : S4000000x1.Idx → α) (i : Fin 4000000) :
    shapeCast S4000000 x shapeCasts_S4000000x1_S4000000 (ix1 i) = x (ix2 i 0) := by
  refine shapeCast_apply x _ (ix1 i) (ix2 i 0) ?_
  rw [Shape.rowMajor_val_two, Shape.rowMajor_val_one]
  show i.val * 1 + 0 = i.val
  omega

end Broadcasts

/-! ## The entrywise operations at an index -/

section Pointwise
variable {s : Shape}

theorem hdivf_apply (a b : FVec Ideal s .f32) (i : s.Idx) : Host.divf (F := Ideal) a b i = Ideal.div (a i) (b i) := rfl
theorem hrsqrt_apply (a : FVec Ideal s .f32) (i : s.Idx) : Host.rsqrt (F := Ideal) a i = Ideal.rsqrt (a i) := rfl
theorem htanh_apply (a : FVec Ideal s .f32) (i : s.Idx) : Host.tanh (F := Ideal) a i = Ideal.tanh (a i) := rfl

end Pointwise

/-! ## The program's stages, over variables -/

/-- A parameter vector of eight entries repeated on every row. -/
def rowParam (g : FVec Ideal S8 .f32) : FVec Ideal S4000000x8 .f32 :=
  broadcastInDim S4000000x8 ![0, 1] bcast_S1x8_S4000000x8_0_1 (broadcastInDim S1x8 ![1] bcast_S8_S1x8_1 g)

/-- The first layer's affine map on the edge features. -/
def affV6 (E : FVec Ideal S4000000x6 .f32) (W : FVec Ideal S6x8 .f32) (b : FVec Ideal S8 .f32) : FVec Ideal S4000000x8 .f32 :=
  addf (Host.dotGeneral (F := Ideal) dot_S4000000x6_S6x8_S4000000x8_1_0_0_1_n_n none E W) (rowParam b)

/-- A middle layer's affine map. -/
def affV8 (a : FVec Ideal S4000000x8 .f32) (W : FVec Ideal S8x8 .f32) (b : FVec Ideal S8 .f32) : FVec Ideal S4000000x8 .f32 :=
  addf (Host.dotGeneral (F := Ideal) dot_S4000000x8_S8x8_S4000000x8_1_0_0_1_n_n none a W) (rowParam b)

/-- Every row's mean, as a column. -/
def meanV (v : FVec Ideal S4000000x8 .f32) : FVec Ideal S4000000x1 .f32 :=
  Host.divf (F := Ideal)
    (broadcastInDim S4000000x1 ![0] bcast_S4000000_S4000000x1_0
      (Host.reduceAdd (F := Ideal) v (constant (F := Ideal) S_ .f32 0x00000000#32) reducesTo_S4000000x8_S4000000_d1 h_S_))
    (broadcastInDim S4000000x1 ![] bcast_S_S4000000x1 (constant (F := Ideal) S_ .f32 0x41000000#32))

/-- The deviations from a column of row values. -/
def devV (v : FVec Ideal S4000000x8 .f32) (mu : FVec Ideal S4000000x1 .f32) : FVec Ideal S4000000x8 .f32 :=
  subf v (broadcastInDim S4000000x8 ![0, 1] bcast_S4000000x1_S4000000x8_0_1 mu)

/-- Normalise, scale, shift and `tanh`, from an array, its column of means and its deviations. -/
def normV (v : FVec Ideal S4000000x8 .f32) (mu : FVec Ideal S4000000x1 .f32) (dev : FVec Ideal S4000000x8 .f32)
    (g be : FVec Ideal S8 .f32) : FVec Ideal S4000000x8 .f32 :=
  Host.tanh (F := Ideal) (addf (mulf (mulf (subf v (broadcastInDim S4000000x8 ![0, 1] bcast_S4000000x1_S4000000x8_0_1 mu))
    (broadcastInDim S4000000x8 ![0, 1] bcast_S4000000x1_S4000000x8_0_1 (Host.rsqrt (F := Ideal) (addf (Host.divf (F := Ideal)
      (broadcastInDim S4000000x1 ![0] bcast_S4000000_S4000000x1_0
        (Host.reduceAdd (F := Ideal) (mulf dev dev) (constant (F := Ideal) S_ .f32 0x00000000#32) reducesTo_S4000000x8_S4000000_d1 h_S_))
      (broadcastInDim S4000000x1 ![] bcast_S_S4000000x1 (constant (F := Ideal) S_ .f32 0x41000000#32)))
      (broadcastInDim S4000000x1 ![] bcast_S_S4000000x1 (constant (F := Ideal) S_ .f32 0x3727C5AC#32))))))
    (rowParam g)) (rowParam be))

/-- The last layer: the affine map to one entry, read as a vector. -/
def tailV (a : FVec Ideal S4000000x8 .f32) (W : FVec Ideal S8x1 .f32) (b : FVec Ideal S1 .f32) : FVec Ideal S4000000 .f32 :=
  shapeCast S4000000 (addf (Host.dotGeneral (F := Ideal) dot_S4000000x8_S8x1_S4000000x1_1_0_0_1_n_n none a W)
    (broadcastInDim S4000000x1 ![0, 1] bcast_S1x1_S4000000x1_0_1 (broadcastInDim S1x1 ![1] bcast_S1_S1x1_1 b)))
    shapeCasts_S4000000x1_S4000000

/-! ## Each stage at an index, as a function of one row -/

theorem rowParam_at (g : FVec Ideal S8 .f32) (i : Fin 4000000) (j : Fin 8) : rowParam g (ix2 i j) = g (ix1 j) :=
  rowParam_apply g i j

theorem affV6_apply (E : FVec Ideal S4000000x6 .f32) (W : FVec Ideal S6x8 .f32) (b : FVec Ideal S8 .f32)
    (i : Fin 4000000) (j : Fin 8) :
    affV6 E W b (ix2 i j)
      = EdgeMlp.affine (fun k => E (ix2 i k)) (fun k j => W (ix2 k j)) (fun j => b (ix1 j)) j := by
  unfold affV6 EdgeMlp.affine
  rw [addf_apply, dot6_apply, rowParam_at]

theorem affV8_apply (a : FVec Ideal S4000000x8 .f32) (W : FVec Ideal S8x8 .f32) (b : FVec Ideal S8 .f32)
    (i : Fin 4000000) (j : Fin 8) :
    affV8 a W b (ix2 i j)
      = EdgeMlp.affine (fun k => a (ix2 i k)) (fun k j => W (ix2 k j)) (fun j => b (ix1 j)) j := by
  unfold affV8 EdgeMlp.affine
  rw [addf_apply, dot8_apply, rowParam_at]

theorem meanV_apply (v : FVec Ideal S4000000x8 .f32) (i : Fin 4000000) :
    meanV v (ix2 i (0 : Fin 1)) = EdgeMlp.mean8 (fun k => v (ix2 i k)) := by
  unfold meanV EdgeMlp.mean8
  rw [hdivf_apply, col_apply, scalarCol_apply, rowSum_apply, constant_apply]

theorem devV_apply (v : FVec Ideal S4000000x8 .f32) (mu : FVec Ideal S4000000x1 .f32) (i : Fin 4000000) (j : Fin 8) :
    devV v mu (ix2 i j) = v (ix2 i j) - mu (ix2 i (0 : Fin 1)) := by
  unfold devV
  rw [subf_apply, colWide_apply]

theorem normV_apply (v : FVec Ideal S4000000x8 .f32) (mu : FVec Ideal S4000000x1 .f32) (dev : FVec Ideal S4000000x8 .f32)
    (g be : FVec Ideal S8 .f32) (i : Fin 4000000) (j : Fin 8) :
    normV v mu dev g be (ix2 i j)
      = Ideal.tanh ((v (ix2 i j) - mu (ix2 i (0 : Fin 1)))
          * Ideal.rsqrt (Ideal.div (∑ k : Fin 8, dev (ix2 i k) * dev (ix2 i k)) EdgeMlp.eight + EdgeMlp.eps)
          * g (ix1 j) + be (ix1 j)) := by
  unfold normV
  rw [htanh_apply, addf_apply, mulf_apply, mulf_apply, subf_apply, colWide_apply, colWide_apply, hrsqrt_apply, addf_apply,
    hdivf_apply, col_apply, scalarCol_apply, scalarCol_apply, rowSum_apply, constant_apply, constant_apply, rowParam_at, rowParam_at]
  rfl

/-- One normalised layer at `(i, j)`, from row `i` of its input: the mean and the deviations being that row's own. -/
theorem layer_apply (v : FVec Ideal S4000000x8 .f32) (g be : FVec Ideal S8 .f32) (i : Fin 4000000) (j : Fin 8) :
    normV v (meanV v) (devV v (meanV v)) g be (ix2 i j)
      = EdgeMlp.normTanh (fun k => v (ix2 i k)) (fun j => g (ix1 j)) (fun j => be (ix1 j)) j := by
  rw [normV_apply, meanV_apply]
  unfold EdgeMlp.normTanh
  simp only [devV_apply, meanV_apply]

theorem tailV_apply (a : FVec Ideal S4000000x8 .f32) (W : FVec Ideal S8x1 .f32) (b : FVec Ideal S1 .f32) (i : Fin 4000000) :
    tailV a W b (ix1 i)
      = EdgeMlp.affine (fun k => a (ix2 i k)) (fun k j => W (ix2 k j)) (fun j => b (ix1 j)) (0 : Fin 1) := by
  unfold tailV EdgeMlp.affine
  rw [flat_apply, addf_apply, dot1_apply, rowParam1_apply]

/-! ## The named intermediates are those stages -/

section Named
variable (V0 : Valuation τ sig (Elt Ideal))

theorem v22_eq : res_main_v22 (F := Ideal) V0 = affV6 (Feat.edgeFeat (V0 (Proc.devRef .tc main_arg0)) (V0 (Proc.devRef .tc main_arg1))) (V0 (Proc.devRef .tc main_arg2)) (V0 (Proc.devRef .tc main_arg3)) := rfl
theorem v26_eq : res_main_v26 (F := Ideal) V0 = meanV (res_main_v22 V0) := rfl
theorem v28_eq : res_main_v28 (F := Ideal) V0 = devV (res_main_v22 V0) (meanV (res_main_v22 V0)) := rfl
theorem v51_eq : res_main_v51 (F := Ideal) V0
    = affV8 (normV (res_main_v22 V0) (meanV (res_main_v22 V0)) (devV (res_main_v22 V0) (meanV (res_main_v22 V0))) (V0 (Proc.devRef .tc main_arg4)) (V0 (Proc.devRef .tc main_arg5))) (V0 (Proc.devRef .tc main_arg6)) (V0 (Proc.devRef .tc main_arg7)) := rfl
theorem v55_eq : res_main_v55 (F := Ideal) V0 = meanV (res_main_v51 V0) := rfl
theorem v57_eq : res_main_v57 (F := Ideal) V0 = devV (res_main_v51 V0) (meanV (res_main_v51 V0)) := rfl
theorem v80_eq : res_main_v80 (F := Ideal) V0
    = affV8 (normV (res_main_v51 V0) (meanV (res_main_v51 V0)) (devV (res_main_v51 V0) (meanV (res_main_v51 V0))) (V0 (Proc.devRef .tc main_arg8)) (V0 (Proc.devRef .tc main_arg9))) (V0 (Proc.devRef .tc main_arg10)) (V0 (Proc.devRef .tc main_arg11)) := rfl
theorem v84_eq : res_main_v84 (F := Ideal) V0 = meanV (res_main_v80 V0) := rfl
theorem v86_eq : res_main_v86 (F := Ideal) V0 = devV (res_main_v80 V0) (meanV (res_main_v80 V0)) := rfl

/-- Row `i` after the first affine map. -/
theorem row22 (i : Fin 4000000) :
    (fun j : Fin 8 => res_main_v22 (F := Ideal) V0 (ix2 i j))
      = EdgeMlp.affine (fun k => Feat.edgeFeat (V0 (Proc.devRef .tc main_arg0)) (V0 (Proc.devRef .tc main_arg1)) (ix2 i k))
          (fun k j => (V0 (Proc.devRef .tc main_arg2)) (ix2 k j)) (fun j => (V0 (Proc.devRef .tc main_arg3)) (ix1 j)) := by
  funext j; rw [v22_eq, affV6_apply]

/-- Row `i` after the second affine map, from row `i` after the first. -/
theorem row51 (i : Fin 4000000) :
    (fun j : Fin 8 => res_main_v51 (F := Ideal) V0 (ix2 i j))
      = EdgeMlp.affine (EdgeMlp.normTanh (fun k => res_main_v22 (F := Ideal) V0 (ix2 i k))
            (fun j => (V0 (Proc.devRef .tc main_arg4)) (ix1 j)) (fun j => (V0 (Proc.devRef .tc main_arg5)) (ix1 j)))
          (fun k j => (V0 (Proc.devRef .tc main_arg6)) (ix2 k j)) (fun j => (V0 (Proc.devRef .tc main_arg7)) (ix1 j)) := by
  funext j; rw [v51_eq, affV8_apply]; simp only [layer_apply]

/-- Row `i` after the third affine map, from row `i` after the second. -/
theorem row80 (i : Fin 4000000) :
    (fun j : Fin 8 => res_main_v80 (F := Ideal) V0 (ix2 i j))
      = EdgeMlp.affine (EdgeMlp.normTanh (fun k => res_main_v51 (F := Ideal) V0 (ix2 i k))
            (fun j => (V0 (Proc.devRef .tc main_arg8)) (ix1 j)) (fun j => (V0 (Proc.devRef .tc main_arg9)) (ix1 j)))
          (fun k j => (V0 (Proc.devRef .tc main_arg10)) (ix2 k j)) (fun j => (V0 (Proc.devRef .tc main_arg11)) (ix1 j)) := by
  funext j; rw [v80_eq, affV8_apply]; simp only [layer_apply]

/-- The whole composed term is the specification's function of the arguments. -/
theorem value_eq :
    tailV (normV (res_main_v80 (F := Ideal) V0) (meanV (res_main_v80 (F := Ideal) V0)) (devV (res_main_v80 (F := Ideal) V0) (meanV (res_main_v80 (F := Ideal) V0))) (V0 (Proc.devRef .tc main_arg12)) (V0 (Proc.devRef .tc main_arg13))) (V0 (Proc.devRef .tc main_arg14)) (V0 (Proc.devRef .tc main_arg15))
      = EdgeMlp.G (Feat.edgeFeat (V0 (Proc.devRef .tc main_arg0)) (V0 (Proc.devRef .tc main_arg1))) (V0 (Proc.devRef .tc main_arg2)) (V0 (Proc.devRef .tc main_arg3)) (V0 (Proc.devRef .tc main_arg4)) (V0 (Proc.devRef .tc main_arg5)) (V0 (Proc.devRef .tc main_arg6)) (V0 (Proc.devRef .tc main_arg7)) (V0 (Proc.devRef .tc main_arg8)) (V0 (Proc.devRef .tc main_arg9)) (V0 (Proc.devRef .tc main_arg10)) (V0 (Proc.devRef .tc main_arg11)) (V0 (Proc.devRef .tc main_arg12)) (V0 (Proc.devRef .tc main_arg13)) (V0 (Proc.devRef .tc main_arg14)) (V0 (Proc.devRef .tc main_arg15)) := by
  funext idx
  obtain ⟨i, rfl⟩ : ∃ i : Fin 4000000, idx = ix1 i := ⟨idx 0, eq_ix1 idx⟩
  rw [tailV_apply]
  simp only [layer_apply]
  rw [row80, row51, row22]
  rfl

end Named

/-! ## The run -/

theorem run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v110)
        = EdgeMlp.G (Feat.edgeFeat (m ((c.tc : Thread nD τ).loc main_arg0)) (m ((c.tc : Thread nD τ).loc main_arg1)))
            (m ((c.tc : Thread nD τ).loc main_arg2)) (m ((c.tc : Thread nD τ).loc main_arg3)) (m ((c.tc : Thread nD τ).loc main_arg4)) (m ((c.tc : Thread nD τ).loc main_arg5))
            (m ((c.tc : Thread nD τ).loc main_arg6)) (m ((c.tc : Thread nD τ).loc main_arg7)) (m ((c.tc : Thread nD τ).loc main_arg8)) (m ((c.tc : Thread nD τ).loc main_arg9))
            (m ((c.tc : Thread nD τ).loc main_arg10)) (m ((c.tc : Thread nD τ).loc main_arg11)) (m ((c.tc : Thread nD τ).loc main_arg12)) (m ((c.tc : Thread nD τ).loc main_arg13))
            (m ((c.tc : Thread nD τ).loc main_arg14)) (m ((c.tc : Thread nD τ).loc main_arg15))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15) :=
  (θ_run defs _ _).mono (fun _ h c => ⟨(h c).1.trans (value_eq (launchContents m c)), (h c).2⟩) (Value.run (F := Ideal) m ρ)

end Cert.ReferenceIdeal.RefValue

end
-- ==== Proof.lean ====
/-
  The certificate of a per-edge MLP kernel against its array-level reference, over the extended reals.

  Both programs gather, for every edge, the coordinates of its two end nodes into a row of six features, and
  send each row through the same four-layer map (three times: affine map, normalisation over the eight entries,
  entrywise scale and shift, tanh; then an affine map to one entry).  The reference applies the map to the whole
  4000000-row array at once.  The kernel program narrows the node table and the weights (the identity at the
  exact values), pads the rows with zero rows to 62 blocks of 65536, runs the map block by block in a pipelined
  region, and keeps the first 4000000 outputs.  A product with a weight matrix is, on both sides, the plain sum
  over the contracted entry, and a row sum the plain sum of the row's entries, so both results are the
  specification's `G` of the same edge features and parameters: no law beyond re-indexing finite sums is used,
  and the finiteness of the inputs is never needed.

  The three frames: the kernel program's and its idealisation's are the generated frame certificates; the
  reference has no region, and its frame is its run with the result forgotten.  The idealisation rewrote no
  operation, so there is nothing to preserve.
-/
import proofs.«126648_j24524263260404_1_alg».proof.Defs
import proofs.«126648_j24524263260404_1_alg».proof.Proof.Gen.Kernel
import proofs.«126648_j24524263260404_1_alg».proof.Proof.Gen.Kernel.Skeleton
import proofs.«126648_j24524263260404_1_alg».proof.Proof.Gen.Kernel.Launch
import proofs.«126648_j24524263260404_1_alg».proof.Proof.Gen.Kernel.Points
import proofs.«126648_j24524263260404_1_alg».proof.Proof.Gen.Kernel.Frame
import proofs.«126648_j24524263260404_1_alg».proof.Proof.Gen.KernelIdeal
import proofs.«126648_j24524263260404_1_alg».proof.Proof.Gen.KernelIdeal.Skeleton
import proofs.«126648_j24524263260404_1_alg».proof.Proof.Gen.KernelIdeal.Launch
import proofs.«126648_j24524263260404_1_alg».proof.Proof.Gen.KernelIdeal.Points
import proofs.«126648_j24524263260404_1_alg».proof.Proof.Gen.KernelIdeal.Frame
import proofs.«126648_j24524263260404_1_alg».proof.Proof.Gen.ReferenceIdeal
import proofs.«126648_j24524263260404_1_alg».proof.Proof.Gen.Pre_finite_inputs
import proofs.«126648_j24524263260404_1_alg».proof.Proof.Gen.ReferenceIdeal.Run
import proofs.«126648_j24524263260404_1_alg».proof.Proof.KValue
import proofs.«126648_j24524263260404_1_alg».proof.Proof.RefValue
import Idealize.ShloMosaic.Adequacy
import Idealize.ShloMosaic.Init

noncomputable section

namespace Cert.Proof

open Idealize.ShloMosaic Idealize.SL.Sem

/-- The two programs build the edge features by the same host operations over records with the same fields. -/
theorem feat_eq (x : FVec Ideal Cert.KernelIdeal.S100000x3 .f32) (ei : IVec Cert.KernelIdeal.S2x4000000 32) :
    Cert.ReferenceIdeal.Feat.edgeFeat x ei = Cert.KernelIdeal.Feat.edgeFeat x ei := rfl

theorem frame_kernel : Cert.frame_Kernel := fun m ρ _ => Cert.Kernel.Gen.frame m ρ

theorem frame_ideal : Cert.frame_KernelIdeal := fun m ρ _ => Cert.KernelIdeal.Gen.frame m ρ

theorem frame_reference : Cert.frame_ReferenceIdeal := fun m ρ _ =>
  (θ_run Cert.ReferenceIdeal.defs _ _).mono (fun _ h c => (h c).2) (Cert.ReferenceIdeal.Value.run (F := Ideal) m ρ)

/-- From memories that agree on the sixteen arguments both programs end with the result array at the
    specification's `G` of the same edge features and parameters. -/
theorem algebraic : Cert.algebraic_KernelIdeal_ReferenceIdeal := by
  intro m ρ m' ρ' _ hagree
  refine ⟨fun c => EdgeMlp.G (Cert.KernelIdeal.Feat.edgeFeat (m ((c.tc : Thread Cert.KernelIdeal.nD Cert.KernelIdeal.τ).loc Cert.KernelIdeal.main_arg0)) (m ((c.tc : Thread Cert.KernelIdeal.nD Cert.KernelIdeal.τ).loc Cert.KernelIdeal.main_arg1)))
      (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))
      (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))
      (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))
      (m ((c.tc : Thread Cert.KernelIdeal.nD Cert.KernelIdeal.τ).loc Cert.KernelIdeal.main_arg14)) (m ((c.tc : Thread Cert.KernelIdeal.nD Cert.KernelIdeal.τ).loc Cert.KernelIdeal.main_arg15)),
    Cert.KernelIdeal.KValue.run m ρ, ?_⟩
  refine (θ_run Cert.ReferenceIdeal.defs _ _).mono (fun _ h c => ⟨(h c).1.trans ?_, (h c).2⟩)
    (Cert.ReferenceIdeal.RefValue.run m' ρ')
  obtain ⟨a0, a1, a2, a3, a4, a5, a6, a7, a8, a9, a10, a11, a12, a13, a14, a15⟩ := hagree c
  rw [a0, a1, a2, a3, a4, a5, a6, a7, a8, a9, a10, a11, a12, a13, a14, a15, feat_eq]

theorem claim : Cert.Claim := ⟨Cert.Kernel.Gen.facts, Cert.KernelIdeal.Gen.facts, Cert.ReferenceIdeal.Gen.facts, Cert.Pre_finite_inputs.Gen.facts,
  frame_kernel, frame_ideal, frame_reference, trivial, algebraic⟩

end Cert.Proof

end
